-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S2x4096x4096 .f32) (main_arg1 : FVec F S4096x4096 .f32) (main_arg2 : FVec F S16x4096 .f32) (main_arg3 : FVec F S4096x16 .f32) (main_arg4 : FVec F S4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S8192x16 : Shape := ⟨2, ![8192, 16]⟩
abbrev S1024x1024 : Shape := ⟨2, ![1024, 1024]⟩
abbrev S16x1024 : Shape := ⟨2, ![16, 1024]⟩
abbrev S1024x16 : Shape := ⟨2, ![1024, 16]⟩
abbrev S1x1024 : Shape := ⟨2, ![1, 1024]⟩

abbrev nBuf : Space → Nat
  | .hbm => 13
  | .vmem => 20
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S4096x16, .f32⟩
  | .hbm, ⟨8, _⟩ => ⟨S4096x16, .f32⟩
  | .hbm, ⟨9, _⟩ => ⟨S1x4096, .f32⟩
  | .hbm, ⟨10, _⟩ => ⟨S8192x16, .f32⟩
  | .hbm, ⟨11, _⟩ => ⟨S8192x4096, .f32⟩
  | .hbm, ⟨12, _⟩ => ⟨S2x4096x4096, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x16, .f32⟩
  | .local _ .vmem, ⟨14, _⟩ => ⟨S1024x16, .f32⟩
  | .local _ .vmem, ⟨15, _⟩ => ⟨S1024x16, .f32⟩
  | .local _ .vmem, ⟨16, _⟩ => ⟨S1024x16, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1024x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S2x4096x4096_S8192x4096 : S2x4096x4096.ShapeCasts S8192x4096
  bcast_S_S4096x16 : S_.BroadcastsInDim S4096x16 (![] : Fin 0 → Fin S4096x16.rank)
  shapeCasts_S4096_S1x4096 : S4096.ShapeCasts S1x4096
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S16x1024_S16x1024_0_0 : ∀ a, (![0, 0] : Fin 2 → Nat) a + S16x1024.size a ≤ S16x1024.size a
  h_S16x1024 : 0 < S16x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S2x4096x4096 : S8192x4096.ShapeCasts S2x4096x4096
  dot_S1024x1024_S16x1024_S1024x16_1_1_0_0_n_n_wf : DotDims.WF S1024x1024 S16x1024 S1024x16 [1] [1] [0] [0] [] []
  dot_S1024x1024_S1024x1024_S1024x1024_1_1_0_0_n_n_wf : DotDims.WF S1024x1024 S1024x1024 S1024x1024 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x4096.size a
  hwx0_1 : ∀ i : grid0.Coords, EltTy.bits .f32 = 32 ∨ (Rect.block (s := S16x4096) S16x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S8192x16.size a
  hwx0_2 : ∀ i : grid0.Coords, EltTy.bits .f32 = 32 ∨ (Rect.block (s := S8192x16) S1024x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S8192x16.size a
  hwx1_3 : ∀ i : grid1.Coords, EltTy.bits .f32 = 32 ∨ (Rect.block (s := S8192x16) S1024x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x16.size a ≤ S4096x16.size a
  hwx1_4 : ∀ i : grid1.Coords, EltTy.bits .f32 = 32 ∨ (Rect.block (s := S4096x16) S1024x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x4096.size a
  hwx1_5 : ∀ i : grid1.Coords, EltTy.bits .f32 = 32 ∨ (Rect.block (s := S8192x4096) S1024x1024.size (cc1_transform_5 i) (hinb1_5 i)).WholeWords (EltTy.packing .f32)

variable [Facts₀]

def dot_S1024x1024_S16x1024_S1024x16_1_1_0_0_n_n : DotDims S1024x1024 S16x1024 S1024x16 where
  lhsContracting := [1]
  rhsContracting := [1]
  lhsNonContracting := [0]
  rhsNonContracting := [0]
  lhsBatch := []
  rhsBatch := []
  wf := dot_S1024x1024_S16x1024_S1024x16_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1024x16.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S2x4096x4096 : Shape := ⟨3, ![2, 4096, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S1x1x4096 : Shape := ⟨3, ![1, 1, 4096]⟩
abbrev S2x4096x16 : Shape := ⟨3, ![2, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S2x4096x4096, .f32⟩
  | .hbm, ⟨6, _⟩ => ⟨S1x1x4096, .f32⟩
  | .hbm, ⟨7, _⟩ => ⟨S2x4096x4096, .f32⟩
  | .hbm, ⟨8, _⟩ => ⟨S2x4096x4096, .f32⟩
  | .hbm, ⟨9, _⟩ => ⟨S2x4096x16, .f32⟩
  | .hbm, ⟨10, _⟩ => ⟨S2x4096x4096, .f32⟩
  | .hbm, ⟨11, _⟩ => ⟨S_, .f32⟩
  | .hbm, ⟨12, _⟩ => ⟨S2x4096x4096, .f32⟩
  | .hbm, ⟨13, _⟩ => ⟨S2x4096x4096, .f32⟩
  | .hbm, ⟨14, _⟩ => ⟨S2x4096x4096, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S2x4096x4096_0_1_2 : S1x1x4096.BroadcastsInDim S2x4096x4096 (![0, 1, 2] : Fin 3 → Fin S2x4096x4096.rank)
  bcast_S_S2x4096x4096 : S_.BroadcastsInDim S2x4096x4096 (![] : Fin 0 → Fin S2x4096x4096.rank)
  dot_S2x4096x4096_S4096x4096_S2x4096x4096_2_1_01_0_n_n_wf : DotDims.WF S2x4096x4096 S4096x4096 S2x4096x4096 [2] [1] [0, 1] [0] [] []
  dot_S2x4096x4096_S16x4096_S2x4096x16_2_1_01_0_n_n_wf : DotDims.WF S2x4096x4096 S16x4096 S2x4096x16 [2] [1] [0, 1] [0] [] []
  dot_S2x4096x16_S4096x16_S2x4096x4096_2_1_01_0_n_n_wf : DotDims.WF S2x4096x16 S4096x16 S2x4096x4096 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S16x4096_S2x4096x16_2_1_01_0_n_n : DotDims S2x4096x4096 S16x4096 S2x4096x16 where
  lhsContracting := [2]
  rhsContracting := [1]
  lhsNonContracting := [0, 1]
  rhsNonContracting := [0]
  lhsBatch := []
  rhsBatch := []
  wf := dot_S2x4096x4096_S16x4096_S2x4096x16_2_1_01_0_n_n_wf
def dot_S2x4096x16_S4096x16_S2x4096x4096_2_1_01_0_n_n : DotDims S2x4096x16 S4096x16 S2x4096x4096 where
  lhsContracting := [2]
  rhsContracting := [1]
  lhsNonContracting := [0, 1]
  rhsNonContracting := [0]
  lhsBatch := []
  rhsBatch := []
  wf := dot_S2x4096x16_S4096x16_S2x4096x4096_2_1_01_0_n_n_wf

class Facts : Prop extends Facts₀ where

variable [Facts]
-- ==== Proof.Kernel.Runs.lean ====
/-
  What the two kernel regions' proofs share. Each pallas_call walks its grid with the reduction axis innermost (4 steps):
  at the step's first point the body zeroes its accumulator scratch, at every point it adds one 1024-wide slab of the
  contraction to it, at the last point it stores the result block. Here: the block of each window at a point read off the
  array as the region finds it; that an input's staging buffer holds that block at every point, fetched there or not;
  the two tests of the body in closed form over the point's position; where the result window is idle; the memrefs the
  body is called with.
-/
import proofs.«178149_j16561393893679_1_alg».proof.Proof.Gen.Kernel.Launch
import proofs.«178149_j16561393893679_1_alg».proof.Proof.Gen.Kernel.Skeleton
import proofs.«178149_j16561393893679_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when a region is entered: every region's half is stated at any such contents
variable (V : (c : Dev nD) → (b : Ref sig .tc) → Buf (Elt F) ((c : Thread nD τ).loc b))

/-! ## The first region: h = x · Aᵀ, 8 row blocks × 4 slabs -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, whether the pipeline fetched it there or the
    block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first conditional's test as the body computes it from the grid coordinates: the reduction coordinate is 0. -/
abbrev cond0_0 (i : grid0.Coords) : Prop := (Scalar.cmpi .ne (Scalar.extui (Scalar.cmpi .eq (BitVec.ofNat 32 (i 1).val) 0#32)) 0#32) = 1#1
/-- It holds exactly at the points whose position is 0 modulo 4 (the reduction axis is innermost, of extent 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The second conditional's test: the reduction coordinate is the last one, 3. -/
abbrev cond0_1 (i : grid0.Coords) : Prop := k0_cond2 i = 1#1
/-- It holds exactly at the points whose position is 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are live everywhere; the result window is idle, and not written back, except at the last slab. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-- The memrefs the body is called with at a point, and the accumulator scratch. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x16 .f32 := win0_2.stage (cfg0.slots t 2)
abbrev hs0_2 (t : Fin cfg0.N) : (ms0_2 t).IsWhole := hstage0_2 ((cfg0.slots t 2).cast nbuf0_2)
abbrev scM0 : Memref sig .tc .vmem S1024x16 .f32 := Memref.whole cc0_scratch0
abbrev VO0_2 : View sig .tc .vmem S1024x16 .f32 := (Memref.whole cc0_stg2_0 : Memref sig .tc .vmem S1024x16 .f32).view
abbrev VS0 : View sig .tc .vmem S1024x16 .f32 := scM0.view

/-! ## The second region: y = x · Wᵀ + bias + h · Bsᵀ, 8 × 4 output blocks × 4 slabs -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first conditional's test as the body computes it from the grid coordinates: the reduction coordinate is 0. -/
abbrev cond1_0 (i : grid1.Coords) : Prop := (Scalar.cmpi .ne (Scalar.extui (Scalar.cmpi .eq (BitVec.ofNat 32 (i 2).val) 0#32)) 0#32) = 1#1
/-- It holds exactly at the points whose position is 0 modulo 4 (the reduction axis is innermost, of extent 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional's test: the reduction coordinate is the last one, 3. -/
abbrev cond1_1 (i : grid1.Coords) : Prop := k1_cond2 i = 1#1
/-- It holds exactly at the points whose position is 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
abbrev scM1 : Memref sig .tc .vmem S1024x1024 .f32 := Memref.whole cc1_scratch0
abbrev VO1_5 : View sig .tc .vmem S1024x1024 .f32 := (Memref.whole cc1_stg5_0 : Memref sig .tc .vmem S1024x1024 .f32).view
abbrev VS1 : View sig .tc .vmem S1024x1024 .f32 := scM1.view

end Regions

end Cert.Kernel.Hand

end
-- ==== Proof.Kernel.Run0A.lean ====
/-
  The first region's body at a slab-0 point: the accumulator is zeroed, then the slab's product x_blk · a_blkᵀ is added to it;
  the result window is not touched. The run finds the pieces the accumulator ends with (the zero store, then the sum store).
-/
import proofs.«178149_j16561393893679_1_alg».proof.Proof.Kernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) :
    Σ' (L2 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d)
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS0)) -∗ K ⟨⟩))
          ⊢ wp frame (wpE (defs₀ (F := F)) Variants.none c none) E (cc0__h_kernel i arg2 harg2 arg3 harg3 arg4 harg4 arg5 harg5) K } := by
  refine ⟨[], ?_, fun E K => ?run⟩
  case run =>
    simp only [cc0__h_kernel_eq_skeleton]; unfold cc0__h_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.Kernel.Run0B.lean ====
/-
  The first region's body at a middle slab: the slab's product is added to what the accumulator held; the result window
  is not touched.
-/
import proofs.«178149_j16561393893679_1_alg».proof.Proof.Kernel.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) :
    Σ' (L2 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg5 fullShare xs0
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS0)) -∗ K ⟨⟩))
          ⊢ wp frame (wpE (defs₀ (F := F)) Variants.none c none) E (cc0__h_kernel i arg2 harg2 arg3 harg3 arg4 harg4 arg5 harg5) K } := by
  refine ⟨[], ?_, fun E K => ?run⟩
  case run =>
    simp only [cc0__h_kernel_eq_skeleton]; unfold cc0__h_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.Kernel.Hand

end
-- ==== Proof.Kernel.Run0C.lean ====
/-
  The first region's body at the last slab: the slab's product is added to what the accumulator held, and the accumulator
  is stored whole into the result window's buffer.
-/
import proofs.«178149_j16561393893679_1_alg».proof.Proof.Kernel.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) :
    Σ' (L2 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__h_kernel i arg2 harg2 arg3 harg3 arg4 harg4 arg5 harg5) K } := by
  refine ⟨?_, ?_, fun E K => ?run⟩
  case run =>
    simp only [cc0__h_kernel_eq_skeleton]; unfold cc0__h_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Kernel.Run1A.lean ====
/-
  The second region's body at a slab-0 point: the accumulator is zeroed, then the slab's product x_blk · w_blkᵀ is added to it;
  the bias, the low-rank factors and the result window are not touched.
-/
import proofs.«178149_j16561393893679_1_alg».proof.Proof.Kernel.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨[], ?_, fun E K => ?run⟩
  case run =>
    simp only [cc1__main_kernel_eq_skeleton]; unfold cc1__main_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.Kernel.Run1B.lean ====
/-
  The second region's body at a middle slab: the slab's product is added to what the accumulator held; nothing else is touched.
-/
import proofs.«178149_j16561393893679_1_alg».proof.Proof.Kernel.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs0
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨[], ?_, fun E K => ?run⟩
  case run =>
    simp only [cc1__main_kernel_eq_skeleton]; unfold cc1__main_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.Kernel.Hand

end
-- ==== Proof.Kernel.Run1C.lean ====
/-
  The second region's body at the last slab: the slab's product is added to what the accumulator held; then the bias row,
  broadcast down the rows, and the low-rank product h_blk · bs_blkᵀ are added to the accumulator and the sum is stored whole
  into the result window's buffer.
-/
import proofs.«178149_j16561393893679_1_alg».proof.Proof.Kernel.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1024 .f32) (x2 : Vec F S1x1024 .f32) (x3 : Vec F S1024x16 .f32) (x4 : Vec F S1024x16 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.Kernel.Hand

end
-- ==== Proof.Kernel.Region0.lean ====
/-
  The first region, h = x · Aᵀ, on its own: what each of the body's three cases leaves in the accumulator and in the result
  window's buffer; the accumulation point by point (`outsAt0`: at a slab-0 point the case's contents, elsewhere the case's
  contents over what the point before left in the accumulator); the region's invariant (before the first point every
  scoped buffer at anything; afterwards the accumulator at what the point before left); the proof data; and the body
  obligation at every point, by cases on the point's position modulo 4.
-/
import proofs.«178149_j16561393893679_1_alg».proof.Proof.Kernel.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## What each case leaves -/

/-- A slab-0 point stores nothing into the result window (idle there): a placeholder nothing consults. -/
def out0_A_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) : Vec F S1024x16 .f32 :=
  VO0_2.read (Elt F) (VO0_2.writes (Elt F) VO0_2.junk (kernelRun0_A c i arg2 harg2 arg3 harg3 arg4 harg4 arg5 harg5 hc0 hc1 x0 x1).1)

/-- The accumulator's pieces at a slab-0 point (the zero store, the sum store) cover it. -/
theorem scover0_A (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) (y : S1024x16.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x16.size (by sl_kernel_rfl) y

/-- What a slab-0 point leaves in the accumulator. -/
def sout0_A (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) : Vec F S1024x16 .f32 :=
  VS0.read (Elt F) (VS0.writes (Elt F) VS0.junk (kernelRun0_A c i arg2 harg2 arg3 harg3 arg4 harg4 arg5 harg5 hc0 hc1 x0 x1).2.1)

def out0_B_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) : Vec F S1024x16 .f32 :=
  VO0_2.read (Elt F) (VO0_2.writes (Elt F) VO0_2.junk (kernelRun0_B c i arg2 harg2 arg3 harg3 arg4 harg4 arg5 harg5 hc0 hc1 x0 x1 xs0).1)

theorem scover0_B (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) (y : S1024x16.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x16.size (by sl_kernel_rfl) y

/-- What a middle point leaves in the accumulator, over what it held (`xs0`). -/
def sout0_B (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) : Vec F S1024x16 .f32 :=
  VS0.read (Elt F) (VS0.writes (Elt F) VS0.junk (kernelRun0_B c i arg2 harg2 arg3 harg3 arg4 harg4 arg5 harg5 hc0 hc1 x0 x1 xs0).2.1)

/-- The last slab's one store into the result window's buffer covers it. -/
theorem cover0_C_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) (y : S1024x16.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x16.size (by sl_kernel_rfl) y

/-- What the last slab leaves in the result window's buffer. -/
def out0_C_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) : Vec F S1024x16 .f32 :=
  VO0_2.read (Elt F) (VO0_2.writes (Elt F) VO0_2.junk (kernelRun0_C c i arg2 harg2 arg3 harg3 arg4 harg4 arg5 harg5 hc0 hc1 x0 x1 xs0).1)

theorem scover0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) (y : S1024x16.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x16.size (by sl_kernel_rfl) y

/-- What the last slab leaves in the accumulator. -/
def sout0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) : Vec F S1024x16 .f32 :=
  VS0.read (Elt F) (VS0.writes (Elt F) VS0.junk (kernelRun0_C c i arg2 harg2 arg3 harg3 arg4 harg4 arg5 harg5 hc0 hc1 x0 x1 xs0).2.1)

/-! ## The accumulation, point by point -/

/-- What the result window's buffer and the accumulator hold after the body at position `n`: the case the position
    selects, run at the point's memrefs and input blocks, over what position `n - 1` left in the accumulator. -/
def outsAt0 (c : Dev nD) : (n : ℕ) → n < cfg0.N → Vec F S1024x16 .f32 × Vec F S1024x16 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
          sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a slab-0 point. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle point: over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last-slab point: over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers other than this region's staging buffers and its accumulator: the second region's staging
    buffers and accumulator, each whole at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class's invariant with the accumulator as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_eq]; simp only [scM0, owns_whole]; try rfl

/-- The region's invariant before position `n`: before the first point the class's (every scoped buffer at anything);
    afterwards the accumulator at what the point before left, the other scoped buffers at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- The region's proof data on core `c`: the arrays as the region finds them; after the body each input's buffer at its
    block, the result's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's position modulo 4 says which case it is in;
    the invariant hands the body the accumulator at what the point before left (at anything at the first point) and takes
    it back at this point's contents; the result window's buffer is handed back as found except at a last slab, where it
    is left at the case's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, H2⟩
        iapply ((kernelRun0_A c (grid0.coords t) _ _ _ _ (ms0_2 t) (hs0_2 t) _ _ ((hcond0_0 t).mpr h0) (fun h => h1 ((hcond0_1 t).mp h)) (iblk0 V c 0 t) (iblk0 V c 1 t)).2.2 Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexact H2
      · rw [PhiS0_castSucc V c t, PhiS0_pos V c _ _ hz]
        iintro ⟨⟨⟨HS0, Hrest⟩, Hg⟩, Ho, ⟨%d0, H0⟩, ⟨%d1, H1⟩, H2⟩
        iapply ((kernelRun0_A c (grid0.coords t) _ _ _ _ (ms0_2 t) (hs0_2 t) _ _ ((hcond0_0 t).mpr h0) (fun h => h1 ((hcond0_1 t).mp h)) (iblk0 V c 0 t) (iblk0 V c 1 t)).2.2 Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, H2⟩
      iapply ((kernelRun0_B c (grid0.coords t) _ _ _ _ (ms0_2 t) (hs0_2 t) _ _ (fun h => h0 ((hcond0_0 t).mp h)) (fun h => h1 ((hcond0_1 t).mp h)) (iblk0 V c 0 t) (iblk0 V c 1 t) _).2.2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 32 := N_0; omega)

end Region

end Cert.Kernel.Hand

end
-- ==== Proof.Kernel.Region1.lean ====
/-
  The second region, y = x · Wᵀ + bias + h · Bsᵀ, on its own, as the first: what each of the body's three cases leaves in
  the accumulator and in the result window's buffer; the accumulation point by point (`outsAt1`); the invariant; the proof
  data; the body obligation by cases on the point's position modulo 4. The bias row and the two low-rank factors are read
  at the last slab only; their buffers hold their blocks at every point (the block index moves only with the output block).
-/
import proofs.«178149_j16561393893679_1_alg».proof.Proof.Kernel.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## What each case leaves -/

def out1_A_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x1024 .f32) (x1 : Vec F S1024x1024 .f32) : Vec F S1024x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1).1)

theorem scover1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x1024 .f32) (x1 : Vec F S1024x1024 .f32) (y : S1024x1024.Idx) :
    ∃ pc ∈ (kernelRun1_A c i arg3 harg3 arg4 harg4 arg5 harg5 arg6 harg6 arg7 harg7 arg8 harg8 arg9 harg9 hc0 hc1 x0 x1).2.1, y ∈ pc.1.set :=
  View.cover_of_tiledL (kernelRun1_A c i arg3 harg3 arg4 harg4 arg5 harg5 arg6 harg6 arg7 harg7 arg8 harg8 arg9 harg9 hc0 hc1 x0 x1).2.1 S1024x1024.size (by sl_kernel_rfl) y

/-- What a slab-0 point leaves in the accumulator. -/
def sout1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x1024 .f32) (x1 : Vec F S1024x1024 .f32) : Vec F S1024x1024 .f32 :=
  VS1.read (Elt F) (VS1.writes (Elt F) VS1.junk (kernelRun1_A c i arg3 harg3 arg4 harg4 arg5 harg5 arg6 harg6 arg7 harg7 arg8 harg8 arg9 harg9 hc0 hc1 x0 x1).2.1)

def out1_B_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x1024 .f32) (x1 : Vec F S1024x1024 .f32) (xs0 : Vec F S1024x1024 .f32) : Vec F S1024x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 xs0).1)

theorem scover1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x1024 .f32) (x1 : Vec F S1024x1024 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 xs0).2.1, y ∈ pc.1.set :=
  View.cover_of_tiledL (kernelRun1_B c i arg3 harg3 arg4 harg4 arg5 harg5 arg6 harg6 arg7 harg7 arg8 harg8 arg9 harg9 hc0 hc1 x0 x1 xs0).2.1 S1024x1024.size (by sl_kernel_rfl) y

/-- What a middle point leaves in the accumulator, over what it held (`xs0`). -/
def sout1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x1024 .f32) (x1 : Vec F S1024x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 arg9 harg9 hc0 hc1 x0 x1 xs0).2.1)

/-- The last slab's one store into the result window's buffer covers it. -/
theorem cover1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x1024.size (by sl_kernel_rfl) y

/-- What the last slab leaves in the result window's buffer. -/
def out1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

theorem scover1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x1024.size (by sl_kernel_rfl) y

/-- What the last slab leaves in the accumulator. -/
def sout1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-! ## The accumulation, point by point -/

/-- What the result window's buffer and the accumulator hold after the body at position `n`. -/
def outsAt1 (c : Dev nD) : (n : ℕ) → n < cfg1.N → Vec F S1024x1024 .f32 × Vec F S1024x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t),
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The class's invariant with the accumulator (the last of the scoped buffers no window of this region stages) as a
    memref owned at some contents; before it the first region's staging buffers and accumulator, each whole at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · by_cases h1 : t.val % 4 = 3
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨B1, B2, B3, B4, B5, B6, B7, HS0⟩, Hg⟩, Ho, ⟨%d0, H0⟩, ⟨%d1, H1⟩, ⟨%d2, H2⟩, ⟨%d3, H3⟩, ⟨%d4, H4⟩, H5⟩
        iapply ((kernelRun1_A c (grid1.coords t) _ _ _ _ (ms1_2 t) (hs1_2 t) (ms1_3 t) (hs1_3 t) (ms1_4 t) (hs1_4 t) (ms1_5 t) (hs1_5 t) _ _ ((hcond1_0 t).mpr h0) (fun h => h1 ((hcond1_1 t).mp h)) (iblk1 V c 0 t) (iblk1 V c 1 t)).2.2 Set.univ _)
        isplitl [H0]; · iexact H0
        isplitl [H1]; · iexact H1
        isplitl [HS0]; · iexact HS0
        iintro ⟨H0, H1, ⟨%es0, HS0⟩⟩
        isplitl [B1 B2 B3 B4 B5 B6 B7 HS0 Hg]
        · isplitl [B1 B2 B3 B4 B5 B6 B7 HS0]
          · isplitl [B1]; · iexact B1
            isplitl [B2]; · iexact B2
            isplitl [B3]; · iexact B3
            isplitl [B4]; · iexact B4
            isplitl [B5]; · iexact B5
            isplitl [B6]; · iexact B6
            isplitl [B7]; · iexact B7
            unfold owns; iexists _; isplitr
            swap; · iexact HS0
            ipureintro; exact View.read_writes_of_cover _ _ _ _ _ (scover1_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS1_castSucc V c t, PhiS1_pos V c _ _ hz]
        iintro ⟨⟨⟨B1, B2, B3, B4, B5, B6, B7, HS0⟩, Hg⟩, Ho, ⟨%d0, H0⟩, ⟨%d1, H1⟩, ⟨%d2, H2⟩, ⟨%d3, H3⟩, ⟨%d4, H4⟩, H5⟩
        iapply ((kernelRun1_A c (grid1.coords t) _ _ _ _ (ms1_2 t) (hs1_2 t) (ms1_3 t) (hs1_3 t) (ms1_4 t) (hs1_4 t) (ms1_5 t) (hs1_5 t) _ _ ((hcond1_0 t).mpr h0) (fun h => h1 ((hcond1_1 t).mp h)) (iblk1 V c 0 t) (iblk1 V c 1 t)).2.2 Set.univ _)
        isplitl [H0]; · iexact H0
        isplitl [H1]; · iexact H1
        isplitl [HS0]; · iexists _; iexact HS0
        iintro ⟨H0, H1, ⟨%es0, HS0⟩⟩
        isplitl [B1 B2 B3 B4 B5 B6 B7 HS0 Hg]
        · isplitl [B1 B2 B3 B4 B5 B6 B7 HS0]
          · isplitl [B1]; · iexact B1
            isplitl [B2]; · iexact B2
            isplitl [B3]; · iexact B3
            isplitl [B4]; · iexact B4
            isplitl [B5]; · iexact B5
            isplitl [B6]; · iexact B6
            isplitl [B7]; · iexact B7
            unfold owns; iexists _; isplitr
            swap; · iexact HS0
            ipureintro; exact View.read_writes_of_cover _ _ _ _ _ (scover1_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C; (try dsimp only)
      rw [PhiS1_castSucc V c t, PhiS1_pos V c _ _ hz]
      iintro ⟨⟨⟨B1, B2, B3, B4, B5, B6, B7, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [B1 B2 B3 B4 B5 B6 B7 HS0 Hg]
      · isplitl [B1 B2 B3 B4 B5 B6 B7 HS0]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS0
          ipureintro; exact View.read_writes_of_cover _ _ _ _ _ (scover1_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B; (try dsimp only)
      rw [PhiS1_castSucc V c t, PhiS1_pos V c _ _ hz]
      iintro ⟨⟨⟨B1, B2, B3, B4, B5, B6, B7, HS0⟩, Hg⟩, Ho, ⟨%d0, H0⟩, ⟨%d1, H1⟩, ⟨%d2, H2⟩, ⟨%d3, H3⟩, ⟨%d4, H4⟩, H5⟩
      iapply ((kernelRun1_B c (grid1.coords t) _ _ _ _ (ms1_2 t) (hs1_2 t) (ms1_3 t) (hs1_3 t) (ms1_4 t) (hs1_4 t) (ms1_5 t) (hs1_5 t) _ _ (fun h => h0 ((hcond1_0 t).mp h)) (fun h => h1 ((hcond1_1 t).mp h)) (iblk1 V c 0 t) (iblk1 V c 1 t) _).2.2 Set.univ _)
      isplitl [H0]; · iexact H0
      isplitl [H1]; · iexact H1
      isplitl [HS0]; · iexact HS0
      iintro ⟨H0, H1, ⟨%es0, HS0⟩⟩
      isplitl [B1 B2 B3 B4 B5 B6 B7 HS0 Hg]
      · isplitl [B1 B2 B3 B4 B5 B6 B7 HS0]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS0
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨B1, B2, B3, B4, B5, B6, B7, HS0⟩, Hg⟩
  isplitl [B1 B2 B3 B4 B5 B6 B7 HS0]
  · isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Region

end Cert.Kernel.Hand

end
-- ==== Proof.Kernel.Main.lean ====
/-
  The whole program's run. @main is four items: the host operations that flatten x, scale B by one and reshape the bias;
  the first region (h); the second region (y); the reshape of y. Between items every unscoped buffer of a core is held at
  a named valuation: the launch memory, then each host stretch applied, then each region's arrays replaced by what its
  pipeline leaves (the inputs as entered, the result array with its write-backs folded). Each region enters from the
  valuation before it and leaves at the one after it, its generator register and accumulator passing through its invariant;
  no core owes anything. The run ends with every unscoped buffer at the last valuation, from which the frame (each argument
  as launched) and the result's value are read.
-/
import proofs.«178149_j16561393893679_1_alg».proof.Proof.Kernel.Region0
import proofs.«178149_j16561393893679_1_alg».proof.Proof.Kernel.Region1
import proofs.«178149_j16561393893679_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev atLaunch : Dev nD → Valuation τ sig (Elt F) := fun c b => (s₀ m ρ).mem ((c : Dev nD), b)
/-- After the first host stretch: the first region's entry. -/
abbrev atR0 : Dev nD → Valuation τ sig (Elt F) := fun c => StableHlo.after hostOps0 (atLaunch m ρ c)
abbrev inR0 : (c : Dev nD) → (b : Ref sig .tc) → Buf (Elt F) ((c : Thread nD τ).loc b) := fun c b => atR0 m ρ c b
/-- At the first region's exit: its arrays at what the pipeline leaves, every other buffer as entered. -/
def afterR0 (c : Dev nD) : Valuation τ sig (Elt F) :=
  Pipeline.withArrays spec0 c (atR0 m ρ c) fun w => (dat0 (inR0 m ρ) c).arrAt w cfg0.N
theorem afterR0_arr (c : Dev nD) (w : Fin cfg0.W) :
    afterR0 m ρ c (Proc.devRef .tc (Pipeline.arrRef spec0 w)) = (dat0 (inR0 m ρ) c).arrAt w cfg0.N := by
  unfold afterR0; exact Pipeline.withArrays_arr spec0 launch0.win.arr_inj c _ _ w
theorem afterR0_of_ne (c : Dev nD) (b : Ref sig .tc) (hb : ∀ w, Pipeline.arrRef spec0 w ≠ b) :
    afterR0 m ρ c (Proc.devRef .tc b) = atR0 m ρ c (Proc.devRef .tc b) := by
  unfold afterR0; exact Pipeline.withArrays_of_ne spec0 c _ _ b hb
/-- The same read at the TensorCore's references: the second region's entry (no host operation stands between the regions). -/
abbrev inR1 : (c : Dev nD) → (b : Ref sig .tc) → Buf (Elt F) ((c : Thread nD τ).loc b) := fun c b => afterR0 m ρ c b
theorem hF0 (c : Dev nD) (w : Fin cfg0.W) : (dat0 (inR0 m ρ) c).arrAt w cfg0.N = inR1 m ρ c (Pipeline.arrRef spec0 w) :=
  (afterR0_arr m ρ c w).symm
theorem hrest0 (c : Dev nD) : ∀ b, b ∉ Finset.univ.image (Pipeline.arrRef spec0) → inR1 m ρ c b = inR0 m ρ c b :=
  fun b hb => afterR0_of_ne m ρ c b fun w e => hb (Finset.mem_image.mpr ⟨w, Finset.mem_univ _, e⟩)

/-- At the second region's exit. -/
def afterR1 (c : Dev nD) : Valuation τ sig (Elt F) :=
  Pipeline.withArrays spec1 c (afterR0 m ρ c) fun w => (dat1 (inR1 m ρ) c).arrAt w cfg1.N
theorem afterR1_arr (c : Dev nD) (w : Fin cfg1.W) :
    afterR1 m ρ c (Proc.devRef .tc (Pipeline.arrRef spec1 w)) = (dat1 (inR1 m ρ) c).arrAt w cfg1.N := by
  unfold afterR1; exact Pipeline.withArrays_arr spec1 launch1.win.arr_inj c _ _ w
theorem afterR1_of_ne (c : Dev nD) (b : Ref sig .tc) (hb : ∀ w, Pipeline.arrRef spec1 w ≠ b) :
    afterR1 m ρ c (Proc.devRef .tc b) = afterR0 m ρ c (Proc.devRef .tc b) := by
  unfold afterR1; exact Pipeline.withArrays_of_ne spec1 c _ _ b hb
abbrev outR1 : (c : Dev nD) → (b : Ref sig .tc) → Buf (Elt F) ((c : Thread nD τ).loc b) := fun c b => afterR1 m ρ c b
theorem hF1 (c : Dev nD) (w : Fin cfg1.W) : (dat1 (inR1 m ρ) c).arrAt w cfg1.N = outR1 m ρ c (Pipeline.arrRef spec1 w) :=
  (afterR1_arr m ρ c w).symm
theorem hrest1 (c : Dev nD) : ∀ b, b ∉ Finset.univ.image (Pipeline.arrRef spec1) → outR1 m ρ c b = inR1 m ρ c b :=
  fun b hb => afterR1_of_ne m ρ c b fun w e => hb (Finset.mem_image.mpr ⟨w, Finset.mem_univ _, e⟩)

/-- After the last host stretch: the end. -/
abbrev atEnd : Dev nD → Valuation τ sig (Elt F) := fun c => StableHlo.after hostOps2 (afterR1 m ρ c)

/-! ### The arguments end as launched -/

theorem atEnd_main_arg0 (c : Dev nD) : atEnd m ρ c (Proc.devRef .tc main_arg0) = m ((c : Thread nD τ).loc main_arg0) :=
  calc atEnd m ρ c (Proc.devRef .tc main_arg0)
    _ = afterR1 m ρ c (Proc.devRef .tc main_arg0) := StableHlo.after_of_writes_sub hostOps2 _ hostOps2_writes (show main_arg0 ∉ hostOps2_W by decide)
    _ = afterR0 m ρ c (Proc.devRef .tc main_arg0) := afterR1_of_ne m ρ c main_arg0 (by decide)
    _ = atR0 m ρ c (Proc.devRef .tc main_arg0) := afterR0_of_ne m ρ c main_arg0 (by decide)
    _ = atLaunch m ρ c (Proc.devRef .tc main_arg0) := StableHlo.after_of_writes_sub hostOps0 _ hostOps0_writes (show main_arg0 ∉ hostOps0_W by decide)
    _ = m ((c : Thread nD τ).loc main_arg0) := rfl

theorem atEnd_main_arg1 (c : Dev nD) : atEnd m ρ c (Proc.devRef .tc main_arg1) = m ((c : Thread nD τ).loc main_arg1) :=
  calc atEnd m ρ c (Proc.devRef .tc main_arg1)
    _ = afterR1 m ρ c (Proc.devRef .tc main_arg1) := StableHlo.after_of_writes_sub hostOps2 _ hostOps2_writes (show main_arg1 ∉ hostOps2_W by decide)
    _ = afterR0 m ρ c (Proc.devRef .tc main_arg1) := (afterR1_arr m ρ c 1).trans (((dat1 (inR1 m ρ) c).arrAt_in 1 rfl _).trans (A_eq1 (inR1 m ρ) c 1))
    _ = atR0 m ρ c (Proc.devRef .tc main_arg1) := afterR0_of_ne m ρ c main_arg1 (by decide)
    _ = atLaunch m ρ c (Proc.devRef .tc main_arg1) := StableHlo.after_of_writes_sub hostOps0 _ hostOps0_writes (show main_arg1 ∉ hostOps0_W by decide)
    _ = m ((c : Thread nD τ).loc main_arg1) := rfl

theorem atEnd_main_arg2 (c : Dev nD) : atEnd m ρ c (Proc.devRef .tc main_arg2) = m ((c : Thread nD τ).loc main_arg2) :=
  calc atEnd m ρ c (Proc.devRef .tc main_arg2)
    _ = afterR1 m ρ c (Proc.devRef .tc main_arg2) := StableHlo.after_of_writes_sub hostOps2 _ hostOps2_writes (show main_arg2 ∉ hostOps2_W by decide)
    _ = afterR0 m ρ c (Proc.devRef .tc main_arg2) := afterR1_of_ne m ρ c main_arg2 (by decide)
    _ = atR0 m ρ c (Proc.devRef .tc main_arg2) := (afterR0_arr m ρ c 1).trans (((dat0 (inR0 m ρ) c).arrAt_in 1 rfl _).trans (A_eq0 (inR0 m ρ) c 1))
    _ = atLaunch m ρ c (Proc.devRef .tc main_arg2) := StableHlo.after_of_writes_sub hostOps0 _ hostOps0_writes (show main_arg2 ∉ hostOps0_W by decide)
    _ = m ((c : Thread nD τ).loc main_arg2) := rfl

theorem atEnd_main_arg3 (c : Dev nD) : atEnd m ρ c (Proc.devRef .tc main_arg3) = m ((c : Thread nD τ).loc main_arg3) :=
  calc atEnd m ρ c (Proc.devRef .tc main_arg3)
    _ = afterR1 m ρ c (Proc.devRef .tc main_arg3) := StableHlo.after_of_writes_sub hostOps2 _ hostOps2_writes (show main_arg3 ∉ hostOps2_W by decide)
    _ = afterR0 m ρ c (Proc.devRef .tc main_arg3) := afterR1_of_ne m ρ c main_arg3 (by decide)
    _ = atR0 m ρ c (Proc.devRef .tc main_arg3) := afterR0_of_ne m ρ c main_arg3 (by decide)
    _ = atLaunch m ρ c (Proc.devRef .tc main_arg3) := StableHlo.after_of_writes_sub hostOps0 _ hostOps0_writes (show main_arg3 ∉ hostOps0_W by decide)
    _ = m ((c : Thread nD τ).loc main_arg3) := rfl

theorem atEnd_main_arg4 (c : Dev nD) : atEnd m ρ c (Proc.devRef .tc main_arg4) = m ((c : Thread nD τ).loc main_arg4) :=
  calc atEnd m ρ c (Proc.devRef .tc main_arg4)
    _ = afterR1 m ρ c (Proc.devRef .tc main_arg4) := StableHlo.after_of_writes_sub hostOps2 _ hostOps2_writes (show main_arg4 ∉ hostOps2_W by decide)
    _ = afterR0 m ρ c (Proc.devRef .tc main_arg4) := afterR1_of_ne m ρ c main_arg4 (by decide)
    _ = atR0 m ρ c (Proc.devRef .tc main_arg4) := afterR0_of_ne m ρ c main_arg4 (by decide)
    _ = atLaunch m ρ c (Proc.devRef .tc main_arg4) := StableHlo.after_of_writes_sub hostOps0 _ hostOps0_writes (show main_arg4 ∉ hostOps0_W by decide)
    _ = m ((c : Thread nD τ).loc main_arg4) := rfl

/-! ## The proof data family and the thread state -/

abbrev noTables : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) noTables p) c
  | ⟨0, _⟩ => fun c => dat0 (inR0 m ρ) c
  | ⟨1, _⟩ => fun c => dat1 (inR1 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (atEnd m ρ c) ∗ ∃ r, prngReg c r)

/-! ## The regions as items -/

set_option backward.isDefEq.respectTransparency.types false in
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (inR0 m ρ) c).loose
  hwaits := Pipeline.hwaits_of_owed_zero _ _ _ _ L lv 0 fun _ _ => rfl
  pre c := iprop(StableHlo.held (c : Thread nD τ) (Pipeline.ucRefs τ sig) (atR0 m ρ c) ∗ R c)
  post c := iprop(StableHlo.held (c : Thread nD τ) (Pipeline.ucRefs τ sig) (afterR0 m ρ c) ∗ R c)
  X c := iprop(∃ r, prngReg c r)
  Y c := iprop(∃ r, prngReg c r)
  Z c := Pipeline.unscopedRest (Ix := Unit) (Name := ℕ) (U := UR sig nD τ) (Lvl := ℕ) spec0 c (inR0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (inR0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (inR0 m ρ) c)
    unfold Pipeline.ΦA
    iintro ⟨Hp, -, Hr⟩
    isplitl [Hr]; · iexact Hr
    iexact Hp
  hout c := by
    rw [Pipeline.ownSems0_none]
    refine (hout0 (inR0 m ρ) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (inR0 m ρ c) (inR1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (inR1 m ρ) c).loose
  hwaits := Pipeline.hwaits_of_owed_zero _ _ _ _ L lv 1 fun _ _ => rfl
  pre c := iprop(StableHlo.held (c : Thread nD τ) (Pipeline.ucRefs τ sig) (afterR0 m ρ c) ∗ R c)
  post c := iprop(StableHlo.held (c : Thread nD τ) (Pipeline.ucRefs τ sig) (afterR1 m ρ c) ∗ R c)
  X c := iprop(∃ r, prngReg c r)
  Y c := iprop(∃ r, prngReg c r)
  Z c := Pipeline.unscopedRest (Ix := Unit) (Name := ℕ) (U := UR sig nD τ) (Lvl := ℕ) spec1 c (inR1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (inR1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (inR1 m ρ) c)
    unfold Pipeline.ΦA
    iintro ⟨Hp, -, Hr⟩
    isplitl [Hr]; · iexact Hr
    iexact Hp
  hout c := by
    rw [Pipeline.ownSems0_none]
    refine (hout1 (inR1 m ρ) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (inR1 m ρ c) (outR1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev items : List (Pipeline.Seg (pcfgs (F := F)) noTables (pdats m ρ) () defs₀ 𝒱₀ L lv) :=
  [ .host (hseg hostOps0 hostOps0_sub hostOps0_fresh (atLaunch m ρ)),
    .region (reg0 m ρ),
    .region (reg1 m ρ),
    .host (hseg hostOps2 hostOps2_sub hostOps2_fresh (afterR1 m ρ)) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and every
    final state has every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) noTables (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (atEnd m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c => h c)

/-- THE FRAME at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (atEnd_main_arg0 m ρ c),
     (h c _ (mem_uc main_arg1 (by decide))).trans (atEnd_main_arg1 m ρ c),
     (h c _ (mem_uc main_arg2 (by decide))).trans (atEnd_main_arg2 m ρ c),
     (h c _ (mem_uc main_arg3 (by decide))).trans (atEnd_main_arg3 m ρ c),
     (h c _ (mem_uc main_arg4 (by decide))).trans (atEnd_main_arg4 m ρ c)⟩) (run_main m ρ)

end Cert.Kernel.Hand

end
-- ==== Proof.KernelIdeal.Runs.lean ====
/-
  What the two kernel regions' proofs share. Each pallas_call walks its grid with the reduction axis innermost (4 steps):
  at the step's first point the body zeroes its accumulator scratch, at every point it adds one 1024-wide slab of the
  contraction to it, at the last point it stores the result block. Here: the block of each window at a point read off the
  array as the region finds it; that an input's staging buffer holds that block at every point, fetched there or not;
  the two tests of the body in closed form over the point's position; where the result window is idle; the memrefs the
  body is called with.
-/
import proofs.«178149_j16561393893679_1_alg».proof.Proof.Gen.KernelIdeal.Launch
import proofs.«178149_j16561393893679_1_alg».proof.Proof.Gen.KernelIdeal.Skeleton
import proofs.«178149_j16561393893679_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the buffer contents when a region is entered: every region's half is stated at any such contents
variable (V : (c : Dev nD) → (b : Ref sig .tc) → Buf (Elt F) ((c : Thread nD τ).loc b))

/-! ## The first region: h = x · Aᵀ, 8 row blocks × 4 slabs -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current staging buffer holds its block at every point, whether the pipeline fetched it there or the
    block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The first conditional's test as the body computes it from the grid coordinates: the reduction coordinate is 0. -/
abbrev cond0_0 (i : grid0.Coords) : Prop := (Scalar.cmpi .ne (Scalar.extui (Scalar.cmpi .eq (BitVec.ofNat 32 (i 1).val) 0#32)) 0#32) = 1#1
/-- It holds exactly at the points whose position is 0 modulo 4 (the reduction axis is innermost, of extent 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The second conditional's test: the reduction coordinate is the last one, 3. -/
abbrev cond0_1 (i : grid0.Coords) : Prop := k0_cond2 i = 1#1
/-- It holds exactly at the points whose position is 3 modulo 4. -/
theorem hcond0_1 : ∀ t : Fin cfg0.N, cond0_1 (grid0.coords t) ↔ t.val % 4 = 3 :=
  (by decide +kernel : ∀ t : Fin grid0.N, cond0_1 (grid0.coords t) ↔ t.val % 4 = 3)

/-- The inputs are live everywhere; the result window is idle, and not written back, except at the last slab. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-- The memrefs the body is called with at a point, and the accumulator scratch. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x16 .f32 := win0_2.stage (cfg0.slots t 2)
abbrev hs0_2 (t : Fin cfg0.N) : (ms0_2 t).IsWhole := hstage0_2 ((cfg0.slots t 2).cast nbuf0_2)
abbrev scM0 : Memref sig .tc .vmem S1024x16 .f32 := Memref.whole cc0_scratch0
abbrev VO0_2 : View sig .tc .vmem S1024x16 .f32 := (Memref.whole cc0_stg2_0 : Memref sig .tc .vmem S1024x16 .f32).view
abbrev VS0 : View sig .tc .vmem S1024x16 .f32 := scM0.view

/-! ## The second region: y = x · Wᵀ + bias + h · Bsᵀ, 8 × 4 output blocks × 4 slabs -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The first conditional's test as the body computes it from the grid coordinates: the reduction coordinate is 0. -/
abbrev cond1_0 (i : grid1.Coords) : Prop := (Scalar.cmpi .ne (Scalar.extui (Scalar.cmpi .eq (BitVec.ofNat 32 (i 2).val) 0#32)) 0#32) = 1#1
/-- It holds exactly at the points whose position is 0 modulo 4 (the reduction axis is innermost, of extent 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The second conditional's test: the reduction coordinate is the last one, 3. -/
abbrev cond1_1 (i : grid1.Coords) : Prop := k1_cond2 i = 1#1
/-- It holds exactly at the points whose position is 3 modulo 4. -/
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
theorem liveAt1_5_C : ∀ t : Fin cfg1.N, ¬cond1_0 (grid1.coords t) → cond1_1 (grid1.coords t) → cfg1.idle 5 (grid1.coords t) = false := by decide +kernel

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x16 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x16 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1024 .f32 := win1_5.stage (cfg1.slots t 5)
abbrev hs1_5 (t : Fin cfg1.N) : (ms1_5 t).IsWhole := hstage1_5 ((cfg1.slots t 5).cast nbuf1_5)
abbrev scM1 : Memref sig .tc .vmem S1024x1024 .f32 := Memref.whole cc1_scratch0
abbrev VO1_5 : View sig .tc .vmem S1024x1024 .f32 := (Memref.whole cc1_stg5_0 : Memref sig .tc .vmem S1024x1024 .f32).view
abbrev VS1 : View sig .tc .vmem S1024x1024 .f32 := scM1.view

end Regions

end Cert.KernelIdeal.Hand

end
-- ==== Proof.KernelIdeal.Run0A.lean ====
/-
  The first region's body at a slab-0 point: the accumulator is zeroed, then the slab's product x_blk · a_blkᵀ is added to it;
  the result window is not touched. The run finds the pieces the accumulator ends with (the zero store, then the sum store).
-/
import proofs.«178149_j16561393893679_1_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) :
    Σ' (L2 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ (∃ d, owns (c : Thread nD τ) arg5 fullShare d)
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS0)) -∗ K ⟨⟩))
          ⊢ wp frame (wpE (defs₀ (F := F)) Variants.none c none) E (cc0__h_kernel i arg2 harg2 arg3 harg3 arg4 harg4 arg5 harg5) K } := by
  refine ⟨[], ?_, fun E K => ?run⟩
  case run =>
    simp only [cc0__h_kernel_eq_skeleton]; unfold cc0__h_kernel_skel
    unfold owns
    iintro ⟨⟨%f0, %hf0, H0⟩, ⟨%f1, %hf1, H1⟩, ⟨%ds0, %fs0, -, HS0⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KernelIdeal.Run0B.lean ====
/-
  The first region's body at a middle slab: the slab's product is added to what the accumulator held; the result window
  is not touched.
-/
import proofs.«178149_j16561393893679_1_alg».proof.Proof.KernelIdeal.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) :
    Σ' (L2 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ owns (c : Thread nD τ) arg5 fullShare xs0
            ∗ (iprop(owns (c : Thread nD τ) arg2 fullShare x0 ∗ owns (c : Thread nD τ) arg3 fullShare x1 ∗ (∃ f, arg5.view.loc (c : Thread nD τ) ↦[arg5.view.set]{fullShare} arg5.view.writes (Elt F) f LS0)) -∗ K ⟨⟩))
          ⊢ wp frame (wpE (defs₀ (F := F)) Variants.none c none) E (cc0__h_kernel i arg2 harg2 arg3 harg3 arg4 harg4 arg5 harg5) K } := by
  refine ⟨[], ?_, fun E K => ?run⟩
  case run =>
    simp only [cc0__h_kernel_eq_skeleton]; unfold cc0__h_kernel_skel
    unfold owns
    iintro ⟨⟨%f0, %hf0, H0⟩, ⟨%f1, %hf1, H1⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS0

end Cert.KernelIdeal.Hand

end
-- ==== Proof.KernelIdeal.Run0C.lean ====
/-
  The first region's body at the last slab: the slab's product is added to what the accumulator held, and the accumulator
  is stored whole into the result window's buffer.
-/
import proofs.«178149_j16561393893679_1_alg».proof.Proof.KernelIdeal.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) :
    Σ' (L2 : List (View.Piece (Elt F) S1024x16 .f32)), { LS0 : List (View.Piece (Elt F) S1024x16 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__h_kernel i arg2 harg2 arg3 harg3 arg4 harg4 arg5 harg5) K } := by
  refine ⟨?_, ?_, fun E K => ?run⟩
  case run =>
    simp only [cc0__h_kernel_eq_skeleton]; unfold cc0__h_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdeal.Run1A.lean ====
/-
  The second region's body at a slab-0 point: the accumulator is zeroed, then the slab's product x_blk · w_blkᵀ is added to it;
  the bias, the low-rank factors and the result window are not touched.
-/
import proofs.«178149_j16561393893679_1_alg».proof.Proof.KernelIdeal.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i)
    (x0 : Vec F S1024x1024 .f32) (x1 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg9 fullShare d)
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨[], ?_, fun E K => ?run⟩
  case run =>
    simp only [cc1__main_kernel_eq_skeleton]; unfold cc1__main_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KernelIdeal.Run1B.lean ====
/-
  The second region's body at a middle slab: the slab's product is added to what the accumulator held; nothing else is touched.
-/
import proofs.«178149_j16561393893679_1_alg».proof.Proof.KernelIdeal.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i)
    (x0 : Vec F S1024x1024 .f32) (x1 : Vec F S1024x1024 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg9 fullShare xs0
            ∗ (iprop(owns (c : Thread nD τ) arg3 fullShare x0 ∗ owns (c : Thread nD τ) arg4 fullShare x1 ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨[], ?_, fun E K => ?run⟩
  case run =>
    simp only [cc1__main_kernel_eq_skeleton]; unfold cc1__main_kernel_skel
    unfold owns
    iintro ⟨⟨%f0, %hf0, H0⟩, ⟨%f1, %hf1, H1⟩, ⟨%fs0, %hfs0, HS0⟩, Hk⟩
    obtain rfl := harg3.eq_unread hf0; obtain rfl := harg4.eq_unread hf1; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

end Cert.KernelIdeal.Hand

end
-- ==== Proof.KernelIdeal.Run1C.lean ====
/-
  The second region's body at the last slab: the slab's product is added to what the accumulator held; then the bias row,
  broadcast down the rows, and the low-rank product h_blk · bs_blkᵀ are added to the accumulator and the sum is stored whole
  into the result window's buffer.
-/
import proofs.«178149_j16561393893679_1_alg».proof.Proof.KernelIdeal.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i)
    (x0 : Vec F S1024x1024 .f32) (x1 : Vec F S1024x1024 .f32) (x2 : Vec F S1x1024 .f32) (x3 : Vec F S1024x16 .f32) (x4 : Vec F S1024x16 .f32) (xs0 : Vec F S1024x1024 .f32) :
    Σ' (L5 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; iexact HS0

end Cert.KernelIdeal.Hand

end
-- ==== Proof.KernelIdeal.Region0.lean ====
/-
  The first region, h = x · Aᵀ, on its own: what each of the body's three cases leaves in the accumulator and in the result
  window's buffer; the accumulation point by point (`outsAt0`: at a slab-0 point the case's contents, elsewhere the case's
  contents over what the point before left in the accumulator); the region's invariant (before the first point every
  scoped buffer at anything; afterwards the accumulator at what the point before left); the proof data; and the body
  obligation at every point, by cases on the point's position modulo 4.
-/
import proofs.«178149_j16561393893679_1_alg».proof.Proof.KernelIdeal.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## What each case leaves -/

/-- A slab-0 point stores nothing into the result window (idle there): a placeholder nothing consults. -/
def out0_A_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) : Vec F S1024x16 .f32 :=
  VO0_2.read (Elt F) (VO0_2.writes (Elt F) VO0_2.junk (kernelRun0_A c i arg2 harg2 arg3 harg3 arg4 harg4 arg5 harg5 hc0 hc1 x0 x1).1)

/-- The accumulator's pieces at a slab-0 point (the zero store, the sum store) cover it. -/
theorem scover0_A (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) (y : S1024x16.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x16.size (by sl_kernel_rfl) y

/-- What a slab-0 point leaves in the accumulator. -/
def sout0_A (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) : Vec F S1024x16 .f32 :=
  VS0.read (Elt F) (VS0.writes (Elt F) VS0.junk (kernelRun0_A c i arg2 harg2 arg3 harg3 arg4 harg4 arg5 harg5 hc0 hc1 x0 x1).2.1)

def out0_B_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) : Vec F S1024x16 .f32 :=
  VO0_2.read (Elt F) (VO0_2.writes (Elt F) VO0_2.junk (kernelRun0_B c i arg2 harg2 arg3 harg3 arg4 harg4 arg5 harg5 hc0 hc1 x0 x1 xs0).1)

theorem scover0_B (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) (y : S1024x16.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x16.size (by sl_kernel_rfl) y

/-- What a middle point leaves in the accumulator, over what it held (`xs0`). -/
def sout0_B (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) : Vec F S1024x16 .f32 :=
  VS0.read (Elt F) (VS0.writes (Elt F) VS0.junk (kernelRun0_B c i arg2 harg2 arg3 harg3 arg4 harg4 arg5 harg5 hc0 hc1 x0 x1 xs0).2.1)

/-- The last slab's one store into the result window's buffer covers it. -/
theorem cover0_C_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) (y : S1024x16.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x16.size (by sl_kernel_rfl) y

/-- What the last slab leaves in the result window's buffer. -/
def out0_C_2 (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) : Vec F S1024x16 .f32 :=
  VO0_2.read (Elt F) (VO0_2.writes (Elt F) VO0_2.junk (kernelRun0_C c i arg2 harg2 arg3 harg3 arg4 harg4 arg5 harg5 hc0 hc1 x0 x1 xs0).1)

theorem scover0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) (y : S1024x16.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x16.size (by sl_kernel_rfl) y

/-- What the last slab leaves in the accumulator. -/
def sout0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) : Vec F S1024x16 .f32 :=
  VS0.read (Elt F) (VS0.writes (Elt F) VS0.junk (kernelRun0_C c i arg2 harg2 arg3 harg3 arg4 harg4 arg5 harg5 hc0 hc1 x0 x1 xs0).2.1)

/-! ## The accumulation, point by point -/

/-- What the result window's buffer and the accumulator hold after the body at position `n`: the case the position
    selects, run at the point's memrefs and input blocks, over what position `n - 1` left in the accumulator. -/
def outsAt0 (c : Dev nD) : (n : ℕ) → n < cfg0.N → Vec F S1024x16 .f32 × Vec F S1024x16 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 4 = 0 then
      if h1 : (n + 1) % 4 = 3 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
          sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a slab-0 point. -/
theorem outsAt0_A (c : Dev nD) (t : Fin cfg0.N) (h0 : t.val % 4 = 0) (h1 : ¬t.val % 4 = 3) :
    outsAt0 V c t.val t.isLt = (out0_A_2 c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle point: over what the point before left. -/
theorem outsAt0_B (c : Dev nD) (t : Fin cfg0.N) (h0 : ¬t.val % 4 = 0) (h1 : ¬t.val % 4 = 3) :
    outsAt0 V c t.val t.isLt = (out0_B_2 c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last-slab point: over what the point before left. -/
theorem outsAt0_C (c : Dev nD) (t : Fin cfg0.N) (h0 : ¬t.val % 4 = 0) (h1 : t.val % 4 = 3) :
    outsAt0 V c t.val t.isLt = (out0_C_2 c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The core's scoped buffers other than this region's staging buffers and its accumulator: the second region's staging
    buffers and accumulator, each whole at some contents. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The class's invariant with the accumulator as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_eq]; simp only [scM0, owns_whole]; try rfl

/-- The region's invariant before position `n`: before the first point the class's (every scoped buffer at anything);
    afterwards the accumulator at what the point before left, the other scoped buffers at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- The region's proof data on core `c`: the arrays as the region finds them; after the body each input's buffer at its
    block, the result's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the point's position modulo 4 says which case it is in;
    the invariant hands the body the accumulator at what the point before left (at anything at the first point) and takes
    it back at this point's contents; the result window's buffer is handed back as found except at a last slab, where it
    is left at the case's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 4 = 0
  · by_cases h1 : t.val % 4 = 3
    · exfalso; omega
    · rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, H2⟩
        iapply ((kernelRun0_A c (grid0.coords t) _ _ _ _ (ms0_2 t) (hs0_2 t) _ _ ((hcond0_0 t).mpr h0) (fun h => h1 ((hcond0_1 t).mp h)) (iblk0 V c 0 t) (iblk0 V c 1 t)).2.2 Set.univ _)
        isplitl [H0]; · iexact H0
        isplitl [H1]; · iexact H1
        isplitl [HS0]; · iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexact H2
      · rw [PhiS0_castSucc V c t, PhiS0_pos V c _ _ hz]
        iintro ⟨⟨⟨HS0, Hrest⟩, Hg⟩, Ho, ⟨%d0, H0⟩, ⟨%d1, H1⟩, H2⟩
        iapply ((kernelRun0_A c (grid0.coords t) _ _ _ _ (ms0_2 t) (hs0_2 t) _ _ ((hcond0_0 t).mpr h0) (fun h => h1 ((hcond0_1 t).mp h)) (iblk0 V c 0 t) (iblk0 V c 1 t)).2.2 Set.univ _)
        isplitl [H0]; · iexact H0
        isplitl [H1]; · iexact H1
        isplitl [HS0]; · iexists _; iexact HS0
        iintro ⟨H0, H1, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexact H2
  · have hz : t.val ≠ 0 := fun e => h0 (by rw [e])
    by_cases h1 : t.val % 4 = 3
    · rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _)
          iexact Hrest
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, H2⟩
      iapply ((kernelRun0_B c (grid0.coords t) _ _ _ _ (ms0_2 t) (hs0_2 t) _ _ (fun h => h0 ((hcond0_0 t).mp h)) (fun h => h1 ((hcond0_1 t).mp h)) (iblk0 V c 0 t) (iblk0 V c 1 t) _).2.2 Set.univ _)
      isplitl [H0]; · iexact H0
      isplitl [H1]; · iexact H1
      isplitl [HS0]; · iexact HS0
      iintro ⟨H0, H1, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 32 := N_0; omega)

end Region

end Cert.KernelIdeal.Hand

end
-- ==== Proof.KernelIdeal.Region1.lean ====
/-
  The second region, y = x · Wᵀ + bias + h · Bsᵀ, on its own, as the first: what each of the body's three cases leaves in
  the accumulator and in the result window's buffer; the accumulation point by point (`outsAt1`); the invariant; the proof
  data; the body obligation by cases on the point's position modulo 4. The bias row and the two low-rank factors are read
  at the last slab only; their buffers hold their blocks at every point (the block index moves only with the output block).
-/
import proofs.«178149_j16561393893679_1_alg».proof.Proof.KernelIdeal.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## What each case leaves -/

def out1_A_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x1024 .f32) (x1 : Vec F S1024x1024 .f32) : Vec F S1024x1024 .f32 :=
  VO1_5.read (Elt F) (VO1_5.writes (Elt F) VO1_5.junk (kernelRun1_A c i arg3 harg3 arg4 harg4 arg5 harg5 arg6 harg6 arg7 harg7 arg8 harg8 arg9 harg9 hc0 hc1 x0 x1).1)

theorem scover1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x1024 .f32) (x1 : Vec F S1024x1024 .f32) (y : S1024x1024.Idx) :
    ∃ pc ∈ (kernelRun1_A c i arg3 harg3 arg4 harg4 arg5 harg5 arg6 harg6 arg7 harg7 arg8 harg8 arg9 harg9 hc0 hc1 x0 x1).2.1, y ∈ pc.1.set :=
  View.cover_of_tiledL (kernelRun1_A c i arg3 harg3 arg4 harg4 arg5 harg5 arg6 harg6 arg7 harg7 arg8 harg8 arg9 harg9 hc0 hc1 x0 x1).2.1 S1024x1024.size (by sl_kernel_rfl) y

/-- What a slab-0 point leaves in the accumulator. -/
def sout1_A (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x1024 .f32) (x1 : Vec F S1024x1024 .f32) : Vec F S1024x1024 .f32 :=
  VS1.read (Elt F) (VS1.writes (Elt F) VS1.junk (kernelRun1_A c i arg3 harg3 arg4 harg4 arg5 harg5 arg6 harg6 arg7 harg7 arg8 harg8 arg9 harg9 hc0 hc1 x0 x1).2.1)

def out1_B_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x1024 .f32) (x1 : Vec F S1024x1024 .f32) (xs0 : Vec F S1024x1024 .f32) : Vec F S1024x1024 .f32 :=
  VO1_5.read (Elt F) (VO1_5.writes (Elt F) VO1_5.junk (kernelRun1_B c i arg3 harg3 arg4 harg4 arg5 harg5 arg6 harg6 arg7 harg7 arg8 harg8 arg9 harg9 hc0 hc1 x0 x1 xs0).1)

theorem scover1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x1024 .f32) (x1 : Vec F S1024x1024 .f32) (xs0 : Vec F S1024x1024 .f32) (y : S1024x1024.Idx) :
    ∃ pc ∈ (kernelRun1_B c i arg3 harg3 arg4 harg4 arg5 harg5 arg6 harg6 arg7 harg7 arg8 harg8 arg9 harg9 hc0 hc1 x0 x1 xs0).2.1, y ∈ pc.1.set :=
  View.cover_of_tiledL (kernelRun1_B c i arg3 harg3 arg4 harg4 arg5 harg5 arg6 harg6 arg7 harg7 arg8 harg8 arg9 harg9 hc0 hc1 x0 x1 xs0).2.1 S1024x1024.size (by sl_kernel_rfl) y

/-- What a middle point leaves in the accumulator, over what it held (`xs0`). -/
def sout1_B (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x1024 .f32) (x1 : Vec F S1024x1024 .f32) (xs0 : Vec F S1024x1024 .f32) : Vec F S1024x1024 .f32 :=
  VS1.read (Elt F) (VS1.writes (Elt F) VS1.junk (kernelRun1_B c i arg3 harg3 arg4 harg4 arg5 harg5 arg6 harg6 arg7 harg7 arg8 harg8 arg9 harg9 hc0 hc1 x0 x1 xs0).2.1)

/-- The last slab's one store into the result window's buffer covers it. -/
theorem cover1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).1, y ∈ pc.1.set :=
  View.cover_of_tiledL (kernelRun1_C c i arg3 harg3 arg4 harg4 arg5 harg5 arg6 harg6 arg7 harg7 arg8 harg8 arg9 harg9 hc0 hc1 x0 x1 x2 x3 x4 xs0).1 S1024x1024.size (by sl_kernel_rfl) y

/-- What the last slab leaves in the result window's buffer. -/
def out1_C_5 (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) : Vec F S1024x1024 .f32 :=
  VO1_5.read (Elt F) (VO1_5.writes (Elt F) VO1_5.junk (kernelRun1_C c i arg3 harg3 arg4 harg4 arg5 harg5 arg6 harg6 arg7 harg7 arg8 harg8 arg9 harg9 hc0 hc1 x0 x1 x2 x3 x4 xs0).1)

theorem scover1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) (y : S1024x1024.Idx) :
    ∃ pc ∈ (kernelRun1_C c i arg3 harg3 arg4 harg4 arg5 harg5 arg6 harg6 arg7 harg7 arg8 harg8 arg9 harg9 hc0 hc1 x0 x1 x2 x3 x4 xs0).2.1, y ∈ pc.1.set :=
  View.cover_of_tiledL (kernelRun1_C c i arg3 harg3 arg4 harg4 arg5 harg5 arg6 harg6 arg7 harg7 arg8 harg8 arg9 harg9 hc0 hc1 x0 x1 x2 x3 x4 xs0).2.1 S1024x1024.size (by sl_kernel_rfl) y

/-- What the last slab leaves in the accumulator. -/
def sout1_C (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) : Vec F S1024x1024 .f32 :=
  VS1.read (Elt F) (VS1.writes (Elt F) VS1.junk (kernelRun1_C c i arg3 harg3 arg4 harg4 arg5 harg5 arg6 harg6 arg7 harg7 arg8 harg8 arg9 harg9 hc0 hc1 x0 x1 x2 x3 x4 xs0).2.1)

/-! ## The accumulation, point by point -/

/-- What the result window's buffer and the accumulator hold after the body at position `n`. -/
def outsAt1 (c : Dev nD) : (n : ℕ) → n < cfg1.N → Vec F S1024x1024 .f32 × Vec F S1024x1024 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t),
      sout1_A c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The class's invariant with the accumulator (the last of the scoped buffers no window of this region stages) as a
    memref owned at some contents; before it the first region's staging buffers and accumulator, each whole at anything. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1 fullShare ((outsAt1 V c (n - 1) (by omega)).2)) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · by_cases h1 : t.val % 4 = 3
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨B1, B2, B3, B4, B5, B6, B7, HS0⟩, Hg⟩, Ho, ⟨%d0, H0⟩, ⟨%d1, H1⟩, ⟨%d2, H2⟩, ⟨%d3, H3⟩, ⟨%d4, H4⟩, H5⟩
        iapply ((kernelRun1_A c (grid1.coords t) _ _ _ _ (ms1_2 t) (hs1_2 t) (ms1_3 t) (hs1_3 t) (ms1_4 t) (hs1_4 t) (ms1_5 t) (hs1_5 t) _ _ ((hcond1_0 t).mpr h0) (fun h => h1 ((hcond1_1 t).mp h)) (iblk1 V c 0 t) (iblk1 V c 1 t)).2.2 Set.univ _)
        isplitl [H0]; · iexact H0
        isplitl [H1]; · iexact H1
        isplitl [HS0]; · iexact HS0
        iintro ⟨H0, H1, ⟨%es0, HS0⟩⟩
        isplitl [B1 B2 B3 B4 B5 B6 B7 HS0 Hg]
        · isplitl [B1 B2 B3 B4 B5 B6 B7 HS0]
          · isplitl [B1]; · iexact B1
            isplitl [B2]; · iexact B2
            isplitl [B3]; · iexact B3
            isplitl [B4]; · iexact B4
            isplitl [B5]; · iexact B5
            isplitl [B6]; · iexact B6
            isplitl [B7]; · iexact B7
            unfold owns; iexists _; isplitr
            swap; · iexact HS0
            ipureintro; exact View.read_writes_of_cover _ _ _ _ _ (scover1_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
      · rw [PhiS1_castSucc V c t, PhiS1_pos V c _ _ hz]
        iintro ⟨⟨⟨B1, B2, B3, B4, B5, B6, B7, HS0⟩, Hg⟩, Ho, ⟨%d0, H0⟩, ⟨%d1, H1⟩, ⟨%d2, H2⟩, ⟨%d3, H3⟩, ⟨%d4, H4⟩, H5⟩
        iapply ((kernelRun1_A c (grid1.coords t) _ _ _ _ (ms1_2 t) (hs1_2 t) (ms1_3 t) (hs1_3 t) (ms1_4 t) (hs1_4 t) (ms1_5 t) (hs1_5 t) _ _ ((hcond1_0 t).mpr h0) (fun h => h1 ((hcond1_1 t).mp h)) (iblk1 V c 0 t) (iblk1 V c 1 t)).2.2 Set.univ _)
        isplitl [H0]; · iexact H0
        isplitl [H1]; · iexact H1
        isplitl [HS0]; · iexists _; iexact HS0
        iintro ⟨H0, H1, ⟨%es0, HS0⟩⟩
        isplitl [B1 B2 B3 B4 B5 B6 B7 HS0 Hg]
        · isplitl [B1 B2 B3 B4 B5 B6 B7 HS0]
          · isplitl [B1]; · iexact B1
            isplitl [B2]; · iexact B2
            isplitl [B3]; · iexact B3
            isplitl [B4]; · iexact B4
            isplitl [B5]; · iexact B5
            isplitl [B6]; · iexact B6
            isplitl [B7]; · iexact B7
            unfold owns; iexists _; isplitr
            swap; · iexact HS0
            ipureintro; exact View.read_writes_of_cover _ _ _ _ _ (scover1_A c _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexact H5
  · have hz : t.val ≠ 0 := fun e => h0 (by rw [e])
    by_cases h1 : t.val % 4 = 3
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C; (try dsimp only)
      rw [PhiS1_castSucc V c t, PhiS1_pos V c _ _ hz]
      iintro ⟨⟨⟨B1, B2, B3, B4, B5, B6, B7, HS0⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [B1 B2 B3 B4 B5 B6 B7 HS0 Hg]
      · isplitl [B1 B2 B3 B4 B5 B6 B7 HS0]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS0
          ipureintro; exact View.read_writes_of_cover _ _ _ _ _ (scover1_C c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B; (try dsimp only)
      rw [PhiS1_castSucc V c t, PhiS1_pos V c _ _ hz]
      iintro ⟨⟨⟨B1, B2, B3, B4, B5, B6, B7, HS0⟩, Hg⟩, Ho, ⟨%d0, H0⟩, ⟨%d1, H1⟩, ⟨%d2, H2⟩, ⟨%d3, H3⟩, ⟨%d4, H4⟩, H5⟩
      iapply ((kernelRun1_B c (grid1.coords t) _ _ _ _ (ms1_2 t) (hs1_2 t) (ms1_3 t) (hs1_3 t) (ms1_4 t) (hs1_4 t) (ms1_5 t) (hs1_5 t) _ _ (fun h => h0 ((hcond1_0 t).mp h)) (fun h => h1 ((hcond1_1 t).mp h)) (iblk1 V c 0 t) (iblk1 V c 1 t) _).2.2 Set.univ _)
      isplitl [H0]; · iexact H0
      isplitl [H1]; · iexact H1
      isplitl [HS0]; · iexact HS0
      iintro ⟨H0, H1, ⟨%es0, HS0⟩⟩
      isplitl [B1 B2 B3 B4 B5 B6 B7 HS0 Hg]
      · isplitl [B1 B2 B3 B4 B5 B6 B7 HS0]
        · isplitl [B1]; · iexact B1
          isplitl [B2]; · iexact B2
          isplitl [B3]; · iexact B3
          isplitl [B4]; · iexact B4
          isplitl [B5]; · iexact B5
          isplitl [B6]; · iexact B6
          isplitl [B7]; · iexact B7
          unfold owns; iexists _; isplitr
          swap; · iexact HS0
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨B1, B2, B3, B4, B5, B6, B7, HS0⟩, Hg⟩
  isplitl [B1 B2 B3 B4 B5 B6 B7 HS0]
  · isplitl [B1]; · iexact B1
    isplitl [B2]; · iexact B2
    isplitl [B3]; · iexact B3
    isplitl [B4]; · iexact B4
    isplitl [B5]; · iexact B5
    isplitl [B6]; · iexact B6
    isplitl [B7]; · iexact B7
    iexists _; iexact HS0
  iexact Hg

theorem hout1 (c : Dev nD) : (dat1 V c).Φ (Fin.last cfg1.N) ⊢ Pipeline.ΦA spec1 c :=
  Phi_out1 V c _ (by rw [Fin.val_last]; have : cfg1.N = 128 := N_1; omega)

end Region

end Cert.KernelIdeal.Hand

end
-- ==== Proof.KernelIdeal.Main.lean ====
/-
  The whole program's run. @main is four items: the host operations that flatten x, scale B by one and reshape the bias;
  the first region (h); the second region (y); the reshape of y. Between items every unscoped buffer of a core is held at
  a named valuation: the launch memory, then each host stretch applied, then each region's arrays replaced by what its
  pipeline leaves (the inputs as entered, the result array with its write-backs folded). Each region enters from the
  valuation before it and leaves at the one after it, its generator register and accumulator passing through its invariant;
  no core owes anything. The run ends with every unscoped buffer at the last valuation, from which the frame (each argument
  as launched) and the result's value are read.
-/
import proofs.«178149_j16561393893679_1_alg».proof.Proof.KernelIdeal.Region0
import proofs.«178149_j16561393893679_1_alg».proof.Proof.KernelIdeal.Region1
import proofs.«178149_j16561393893679_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev atLaunch : Dev nD → Valuation τ sig (Elt F) := fun c b => (s₀ m ρ).mem ((c : Dev nD), b)
/-- After the first host stretch: the first region's entry. -/
abbrev atR0 : Dev nD → Valuation τ sig (Elt F) := fun c => StableHlo.after hostOps0 (atLaunch m ρ c)
abbrev inR0 : (c : Dev nD) → (b : Ref sig .tc) → Buf (Elt F) ((c : Thread nD τ).loc b) := fun c b => atR0 m ρ c b
/-- At the first region's exit: its arrays at what the pipeline leaves, every other buffer as entered. -/
def afterR0 (c : Dev nD) : Valuation τ sig (Elt F) :=
  Pipeline.withArrays spec0 c (atR0 m ρ c) fun w => (dat0 (inR0 m ρ) c).arrAt w cfg0.N
theorem afterR0_arr (c : Dev nD) (w : Fin cfg0.W) :
    afterR0 m ρ c (Proc.devRef .tc (Pipeline.arrRef spec0 w)) = (dat0 (inR0 m ρ) c).arrAt w cfg0.N := by
  unfold afterR0; exact Pipeline.withArrays_arr spec0 launch0.win.arr_inj c _ _ w
theorem afterR0_of_ne (c : Dev nD) (b : Ref sig .tc) (hb : ∀ w, Pipeline.arrRef spec0 w ≠ b) :
    afterR0 m ρ c (Proc.devRef .tc b) = atR0 m ρ c (Proc.devRef .tc b) := by
  unfold afterR0; exact Pipeline.withArrays_of_ne spec0 c _ _ b hb
/-- The same read at the TensorCore's references: the second region's entry (no host operation stands between the regions). -/
abbrev inR1 : (c : Dev nD) → (b : Ref sig .tc) → Buf (Elt F) ((c : Thread nD τ).loc b) := fun c b => afterR0 m ρ c b
theorem hF0 (c : Dev nD) (w : Fin cfg0.W) : (dat0 (inR0 m ρ) c).arrAt w cfg0.N = inR1 m ρ c (Pipeline.arrRef spec0 w) :=
  (afterR0_arr m ρ c w).symm
theorem hrest0 (c : Dev nD) : ∀ b, b ∉ Finset.univ.image (Pipeline.arrRef spec0) → inR1 m ρ c b = inR0 m ρ c b :=
  fun b hb => afterR0_of_ne m ρ c b fun w e => hb (Finset.mem_image.mpr ⟨w, Finset.mem_univ _, e⟩)

/-- At the second region's exit. -/
def afterR1 (c : Dev nD) : Valuation τ sig (Elt F) :=
  Pipeline.withArrays spec1 c (afterR0 m ρ c) fun w => (dat1 (inR1 m ρ) c).arrAt w cfg1.N
theorem afterR1_arr (c : Dev nD) (w : Fin cfg1.W) :
    afterR1 m ρ c (Proc.devRef .tc (Pipeline.arrRef spec1 w)) = (dat1 (inR1 m ρ) c).arrAt w cfg1.N := by
  unfold afterR1; exact Pipeline.withArrays_arr spec1 launch1.win.arr_inj c _ _ w
theorem afterR1_of_ne (c : Dev nD) (b : Ref sig .tc) (hb : ∀ w, Pipeline.arrRef spec1 w ≠ b) :
    afterR1 m ρ c (Proc.devRef .tc b) = afterR0 m ρ c (Proc.devRef .tc b) := by
  unfold afterR1; exact Pipeline.withArrays_of_ne spec1 c _ _ b hb
abbrev outR1 : (c : Dev nD) → (b : Ref sig .tc) → Buf (Elt F) ((c : Thread nD τ).loc b) := fun c b => afterR1 m ρ c b
theorem hF1 (c : Dev nD) (w : Fin cfg1.W) : (dat1 (inR1 m ρ) c).arrAt w cfg1.N = outR1 m ρ c (Pipeline.arrRef spec1 w) :=
  (afterR1_arr m ρ c w).symm
theorem hrest1 (c : Dev nD) : ∀ b, b ∉ Finset.univ.image (Pipeline.arrRef spec1) → outR1 m ρ c b = inR1 m ρ c b :=
  fun b hb => afterR1_of_ne m ρ c b fun w e => hb (Finset.mem_image.mpr ⟨w, Finset.mem_univ _, e⟩)

/-- After the last host stretch: the end. -/
abbrev atEnd : Dev nD → Valuation τ sig (Elt F) := fun c => StableHlo.after hostOps2 (afterR1 m ρ c)

/-! ### The arguments end as launched -/

theorem atEnd_main_arg0 (c : Dev nD) : atEnd m ρ c (Proc.devRef .tc main_arg0) = m ((c : Thread nD τ).loc main_arg0) :=
  calc atEnd m ρ c (Proc.devRef .tc main_arg0)
    _ = afterR1 m ρ c (Proc.devRef .tc main_arg0) := StableHlo.after_of_writes_sub hostOps2 _ hostOps2_writes (show main_arg0 ∉ hostOps2_W by decide)
    _ = afterR0 m ρ c (Proc.devRef .tc main_arg0) := afterR1_of_ne m ρ c main_arg0 (by decide)
    _ = atR0 m ρ c (Proc.devRef .tc main_arg0) := afterR0_of_ne m ρ c main_arg0 (by decide)
    _ = atLaunch m ρ c (Proc.devRef .tc main_arg0) := StableHlo.after_of_writes_sub hostOps0 _ hostOps0_writes (show main_arg0 ∉ hostOps0_W by decide)
    _ = m ((c : Thread nD τ).loc main_arg0) := rfl

theorem atEnd_main_arg1 (c : Dev nD) : atEnd m ρ c (Proc.devRef .tc main_arg1) = m ((c : Thread nD τ).loc main_arg1) :=
  calc atEnd m ρ c (Proc.devRef .tc main_arg1)
    _ = afterR1 m ρ c (Proc.devRef .tc main_arg1) := StableHlo.after_of_writes_sub hostOps2 _ hostOps2_writes (show main_arg1 ∉ hostOps2_W by decide)
    _ = afterR0 m ρ c (Proc.devRef .tc main_arg1) := (afterR1_arr m ρ c 1).trans (((dat1 (inR1 m ρ) c).arrAt_in 1 rfl _).trans (A_eq1 (inR1 m ρ) c 1))
    _ = atR0 m ρ c (Proc.devRef .tc main_arg1) := afterR0_of_ne m ρ c main_arg1 (by decide)
    _ = atLaunch m ρ c (Proc.devRef .tc main_arg1) := StableHlo.after_of_writes_sub hostOps0 _ hostOps0_writes (show main_arg1 ∉ hostOps0_W by decide)
    _ = m ((c : Thread nD τ).loc main_arg1) := rfl

theorem atEnd_main_arg2 (c : Dev nD) : atEnd m ρ c (Proc.devRef .tc main_arg2) = m ((c : Thread nD τ).loc main_arg2) :=
  calc atEnd m ρ c (Proc.devRef .tc main_arg2)
    _ = afterR1 m ρ c (Proc.devRef .tc main_arg2) := StableHlo.after_of_writes_sub hostOps2 _ hostOps2_writes (show main_arg2 ∉ hostOps2_W by decide)
    _ = afterR0 m ρ c (Proc.devRef .tc main_arg2) := afterR1_of_ne m ρ c main_arg2 (by decide)
    _ = atR0 m ρ c (Proc.devRef .tc main_arg2) := (afterR0_arr m ρ c 1).trans (((dat0 (inR0 m ρ) c).arrAt_in 1 rfl _).trans (A_eq0 (inR0 m ρ) c 1))
    _ = atLaunch m ρ c (Proc.devRef .tc main_arg2) := StableHlo.after_of_writes_sub hostOps0 _ hostOps0_writes (show main_arg2 ∉ hostOps0_W by decide)
    _ = m ((c : Thread nD τ).loc main_arg2) := rfl

theorem atEnd_main_arg3 (c : Dev nD) : atEnd m ρ c (Proc.devRef .tc main_arg3) = m ((c : Thread nD τ).loc main_arg3) :=
  calc atEnd m ρ c (Proc.devRef .tc main_arg3)
    _ = afterR1 m ρ c (Proc.devRef .tc main_arg3) := StableHlo.after_of_writes_sub hostOps2 _ hostOps2_writes (show main_arg3 ∉ hostOps2_W by decide)
    _ = afterR0 m ρ c (Proc.devRef .tc main_arg3) := afterR1_of_ne m ρ c main_arg3 (by decide)
    _ = atR0 m ρ c (Proc.devRef .tc main_arg3) := afterR0_of_ne m ρ c main_arg3 (by decide)
    _ = atLaunch m ρ c (Proc.devRef .tc main_arg3) := StableHlo.after_of_writes_sub hostOps0 _ hostOps0_writes (show main_arg3 ∉ hostOps0_W by decide)
    _ = m ((c : Thread nD τ).loc main_arg3) := rfl

theorem atEnd_main_arg4 (c : Dev nD) : atEnd m ρ c (Proc.devRef .tc main_arg4) = m ((c : Thread nD τ).loc main_arg4) :=
  calc atEnd m ρ c (Proc.devRef .tc main_arg4)
    _ = afterR1 m ρ c (Proc.devRef .tc main_arg4) := StableHlo.after_of_writes_sub hostOps2 _ hostOps2_writes (show main_arg4 ∉ hostOps2_W by decide)
    _ = afterR0 m ρ c (Proc.devRef .tc main_arg4) := afterR1_of_ne m ρ c main_arg4 (by decide)
    _ = atR0 m ρ c (Proc.devRef .tc main_arg4) := afterR0_of_ne m ρ c main_arg4 (by decide)
    _ = atLaunch m ρ c (Proc.devRef .tc main_arg4) := StableHlo.after_of_writes_sub hostOps0 _ hostOps0_writes (show main_arg4 ∉ hostOps0_W by decide)
    _ = m ((c : Thread nD τ).loc main_arg4) := rfl

/-! ## The proof data family and the thread state -/

abbrev noTables : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) noTables p) c
  | ⟨0, _⟩ => fun c => dat0 (inR0 m ρ) c
  | ⟨1, _⟩ => fun c => dat1 (inR1 m ρ) c
abbrev 𝒱₀ : Variants := Variants.none
abbrev L : GSem nD τ sig → Finset Unit := fun _ => ∅
abbrev lv : GSem nD τ sig → Unit → ℕ := fun _ _ => 0
/-- What rides beside the buffers through every item: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (atEnd m ρ c) ∗ ∃ r, prngReg c r)

/-! ## The regions as items -/

set_option backward.isDefEq.respectTransparency.types false in
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (inR0 m ρ) c).loose
  hwaits := Pipeline.hwaits_of_owed_zero _ _ _ _ L lv 0 fun _ _ => rfl
  pre c := iprop(StableHlo.held (c : Thread nD τ) (Pipeline.ucRefs τ sig) (atR0 m ρ c) ∗ R c)
  post c := iprop(StableHlo.held (c : Thread nD τ) (Pipeline.ucRefs τ sig) (afterR0 m ρ c) ∗ R c)
  X c := iprop(∃ r, prngReg c r)
  Y c := iprop(∃ r, prngReg c r)
  Z c := Pipeline.unscopedRest (Ix := Unit) (Name := ℕ) (U := UR sig nD τ) (Lvl := ℕ) spec0 c (inR0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (inR0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (inR0 m ρ) c)
    unfold Pipeline.ΦA
    iintro ⟨Hp, -, Hr⟩
    isplitl [Hr]; · iexact Hr
    iexact Hp
  hout c := by
    rw [Pipeline.ownSems0_none]
    refine (hout0 (inR0 m ρ) c).trans (show (Pipeline.ΦA spec0 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (inR0 m ρ c) (inR1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (inR1 m ρ) c).loose
  hwaits := Pipeline.hwaits_of_owed_zero _ _ _ _ L lv 1 fun _ _ => rfl
  pre c := iprop(StableHlo.held (c : Thread nD τ) (Pipeline.ucRefs τ sig) (afterR0 m ρ c) ∗ R c)
  post c := iprop(StableHlo.held (c : Thread nD τ) (Pipeline.ucRefs τ sig) (afterR1 m ρ c) ∗ R c)
  X c := iprop(∃ r, prngReg c r)
  Y c := iprop(∃ r, prngReg c r)
  Z c := Pipeline.unscopedRest (Ix := Unit) (Name := ℕ) (U := UR sig nD τ) (Lvl := ℕ) spec1 c (inR1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (inR1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (inR1 m ρ) c)
    unfold Pipeline.ΦA
    iintro ⟨Hp, -, Hr⟩
    isplitl [Hr]; · iexact Hr
    iexact Hp
  hout c := by
    rw [Pipeline.ownSems0_none]
    refine (hout1 (inR1 m ρ) c).trans (show (Pipeline.ΦA spec1 c : sProp 𝕄) ⊢ _ from ?_)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (inR1 m ρ c) (outR1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev items : List (Pipeline.Seg (pcfgs (F := F)) noTables (pdats m ρ) () defs₀ 𝒱₀ L lv) :=
  [ .host (hseg hostOps0 hostOps0_sub hostOps0_fresh (atLaunch m ρ)),
    .region (reg0 m ρ),
    .region (reg1 m ρ),
    .host (hseg hostOps2 hostOps2_sub hostOps2_fresh (afterR1 m ρ)) ]
theorem main_run (c : Dev nD) : main (F := F) c = Pipeline.Seg.run (items m ρ) := (main_chain c).trans (by chain_rfl)

set_option backward.isDefEq.respectTransparency.types false in
/-- THE RUN: from any memory with zero counters every weakly fair execution of @main terminates, nothing faulting, and every
    final state has every unscoped buffer of every core at the last valuation. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = atEnd m ρ c b) :=
  Pipeline.θ_run_regions_kit (pcfgs (F := F)) noTables (pdats m ρ) () cellOf_inj emb₁ defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (atEnd m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m ρ c)
        from Pipeline.unscopedBufs_held c (atLaunch m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m ρ c b)
    (hfin := fun c s' => by
      iintro ⟨⟨Hh, -⟩, HSI⟩
      unfold StableHlo.held
      imodintro
      iapply (pointsTo_read_all (Pipeline.ucRefs τ sig) (fun b => (((c : Thread nD τ)).1, b)) (atEnd m ρ c) s')
      isplitl [Hh] <;> iassumption)
    (hQ := fun s h c => h c)

/-- THE FRAME at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (atEnd_main_arg0 m ρ c),
     (h c _ (mem_uc main_arg1 (by decide))).trans (atEnd_main_arg1 m ρ c),
     (h c _ (mem_uc main_arg2 (by decide))).trans (atEnd_main_arg2 m ρ c),
     (h c _ (mem_uc main_arg3 (by decide))).trans (atEnd_main_arg3 m ρ c),
     (h c _ (mem_uc main_arg4 (by decide))).trans (atEnd_main_arg4 m ρ c)⟩) (run_main m ρ)

end Cert.KernelIdeal.Hand

end
-- ==== Proof.Spec.lean ====
/-
  The mathematics of the fused low-rank adapter, over the extended reals, index by index.
  With x flattened to 8192 rows: the down-projection h[m, r] = ∑_d x[m, d] · A[r, d]; the result
  y[m, n] = (∑_d x[m, d] · W[n, d] + bias[n]) + ∑_r h[m, r] · Bs[n, r], where Bs = 1 · B.
  The kernels contract d in four slabs of 1024, accumulated left to right from zero; a sum over 4096 terms is the sum of its
  four slabs in that grouping, by associativity alone (no finiteness is needed: + on the extended reals is a commutative
  monoid).
-/
import Idealize.ShloMosaic.PureOps.Ideal
import Idealize.ShloMosaic.Lib.ValueIdx
import Idealize.ShloMosaic.Lib.IdealHost
import Mathlib.Algebra.BigOperators.Fin

noncomputable section

namespace Cert.Spec

open Idealize.ShloMosaic Idealize.ShloMosaic.ValueIdx

abbrev Sx3 : Shape := ⟨3, ![2, 4096, 4096]⟩
abbrev Sx2 : Shape := ⟨2, ![8192, 4096]⟩
abbrev SW : Shape := ⟨2, ![4096, 4096]⟩
abbrev SA : Shape := ⟨2, ![16, 4096]⟩
abbrev SB : Shape := ⟨2, ![4096, 16]⟩
abbrev Sb1 : Shape := ⟨1, ![4096]⟩
abbrev Sb2 : Shape := ⟨2, ![1, 4096]⟩
abbrev Sh : Shape := ⟨2, ![8192, 16]⟩

/-- The down-projection: row m of x against row r of A. -/
def hval (x : Sx2.Idx → EReal) (A : SA.Idx → EReal) : Sh.Idx → EReal :=
  fun j => ∑ d : Fin 4096, x (ix2 (j 0) d) * A (ix2 (j 1) d)

/-- The fused result over the flattened rows: base product plus bias, plus the low-rank update. -/
def yval (x : Sx2.Idx → EReal) (W : SW.Idx → EReal) (b : Sb2.Idx → EReal) (h : Sh.Idx → EReal) (Bs : SB.Idx → EReal) : Sx2.Idx → EReal :=
  fun j => ((∑ d : Fin 4096, x (ix2 (j 0) d) * W (ix2 (j 1) d)) + b (ix2 0 (j 1))) + ∑ r : Fin 16, h (ix2 (j 0) r) * Bs (ix2 (j 1) r)

/-- The program's result from its five arguments: y[b, s, n] = (∑_d x[b,s,d]·W[n,d] + bias[n]) + ∑_r (∑_d x[b,s,d]·A[r,d]) · B[n,r]. -/
def G (x : Sx3.Idx → EReal) (W : SW.Idx → EReal) (A : SA.Idx → EReal) (B : SB.Idx → EReal) (bias : Sb1.Idx → EReal) : Sx3.Idx → EReal :=
  fun i => ((∑ d : Fin 4096, x (ix3 (i 0) (i 1) d) * W (ix2 (i 2) d)) + bias (ix1 (i 2)))
    + ∑ r : Fin 16, (∑ d : Fin 4096, x (ix3 (i 0) (i 1) d) * A (ix2 r d)) * B (ix2 (i 2) r)

/-- The k-th slab of 1024 of a family over Fin 4096. -/
def slab (f : Fin 4096 → EReal) (k : Fin 4) : EReal := ∑ d : Fin 1024, f ⟨1024 * k.val + d.val, by have := k.isLt; have := d.isLt; omega⟩

/-- A sum of 4096 terms is its four slabs accumulated from zero, left to right. -/
theorem sum_slabs (f : Fin 4096 → EReal) :
    (((0 + slab f 0) + slab f 1) + slab f 2) + slab f 3 = ∑ d : Fin 4096, f d := by
  have h1 : ∑ d : Fin 4096, f d
      = ∑ i : Fin 3072, f (Fin.castAdd 1024 i) + ∑ i : Fin 1024, f (Fin.natAdd 3072 i) :=
    Fin.sum_univ_add (a := 3072) (b := 1024) f
  have h2 : ∑ i : Fin 3072, f (Fin.castAdd 1024 i)
      = ∑ i : Fin 2048, f (Fin.castAdd 1024 (Fin.castAdd (n := 2048) 1024 i))
        + ∑ i : Fin 1024, f (Fin.castAdd 1024 (Fin.natAdd 2048 i)) :=
    Fin.sum_univ_add (a := 2048) (b := 1024) (fun i => f (Fin.castAdd 1024 i))
  have h3 : ∑ i : Fin 2048, f (Fin.castAdd 1024 (Fin.castAdd (n := 2048) 1024 i))
      = ∑ i : Fin 1024, f (Fin.castAdd 1024 (Fin.castAdd (n := 2048) 1024 (Fin.castAdd (n := 1024) 1024 i)))
        + ∑ i : Fin 1024, f (Fin.castAdd 1024 (Fin.castAdd (n := 2048) 1024 (Fin.natAdd 1024 i))) :=
    Fin.sum_univ_add (a := 1024) (b := 1024) (fun i => f (Fin.castAdd 1024 (Fin.castAdd (n := 2048) 1024 i)))
  have e0 : slab f 0 = ∑ i : Fin 1024, f (Fin.castAdd 1024 (Fin.castAdd (n := 2048) 1024 (Fin.castAdd (n := 1024) 1024 i))) :=
    Finset.sum_congr rfl fun d _ => congrArg f (Fin.ext (by simp <;> omega))
  have e1 : slab f 1 = ∑ i : Fin 1024, f (Fin.castAdd 1024 (Fin.castAdd (n := 2048) 1024 (Fin.natAdd 1024 i))) :=
    Finset.sum_congr rfl fun d _ => congrArg f (Fin.ext (by simp <;> omega))
  have e2 : slab f 2 = ∑ i : Fin 1024, f (Fin.castAdd 1024 (Fin.natAdd 2048 i)) :=
    Finset.sum_congr rfl fun d _ => congrArg f (Fin.ext (by simp <;> omega))
  have e3 : slab f 3 = ∑ i : Fin 1024, f (Fin.natAdd 3072 i) :=
    Finset.sum_congr rfl fun d _ => congrArg f (Fin.ext (by simp <;> omega))
  rw [h1, h2, h3, zero_add, e0, e1, e2, e3]

/-- The single-precision pattern of one is the extended real one. -/
theorem ofBits_one : Ideal.ofBits .f32 0x3F800000#32 = (1 : EReal) := Ideal.ofBits_one_f32

end Cert.Spec

end
-- ==== Proof.HostValue.lean ====
/-
  The host operations around the two regions, read at the ideal instance. Before the regions: x flattened to 8192 rows
  (row 4096·b + s is x[b, s, ·]), B multiplied entrywise by the constant one, the bias as a single row. Between and after:
  the first region's result h enters the second region as it was left; the second region's result is reshaped back to
  [2, 4096, 4096]. Reading these layouts at an index turns the second region's sum over the flattened rows into the
  program's result G of the five arguments; the constant one drops out by 1 · b = b.
-/
import proofs.«178149_j16561393893679_1_alg».proof.Proof.KernelIdeal.Main
import proofs.«178149_j16561393893679_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

variable (m : (ℓ : Loc nD τ sig) → Buf (Elt Ideal) ℓ) (ρ : Dev nD → PrngReg)

/-! ## What the first host stretch leaves -/

theorem atR0_v0 (c : Dev nD) :
    (atR0 m ρ c (Proc.devRef .tc main_v0) : S8192x4096.Idx → EReal)
      = shapeCast S8192x4096 (m ((c : Thread nD τ).loc main_arg0)) shapeCasts_S2x4096x4096_S8192x4096 := by
  show StableHlo.after hostOps0 _ (Proc.devRef .tc main_v0) = _
  after_results
  try rfl

theorem atR0_v2 (c : Dev nD) :
    (atR0 m ρ c (Proc.devRef .tc main_v2) : S4096x16.Idx → EReal)
      = mulf (broadcastInDim S4096x16 ![] bcast_S_S4096x16 (constant (F := Ideal) S_ .f32 0x3F800000#32)) (m ((c : Thread nD τ).loc main_arg3)) := by
  show StableHlo.after hostOps0 _ (Proc.devRef .tc main_v2) = _
  after_results
  try rfl

theorem atR0_v3 (c : Dev nD) :
    (atR0 m ρ c (Proc.devRef .tc main_v3) : S1x4096.Idx → EReal)
      = shapeCast S1x4096 (m ((c : Thread nD τ).loc main_arg4)) shapeCasts_S4096_S1x4096 := by
  show StableHlo.after hostOps0 _ (Proc.devRef .tc main_v3) = _
  after_results
  try rfl

theorem atR0_arg1 (c : Dev nD) : atR0 m ρ c (Proc.devRef .tc main_arg1) = m ((c : Thread nD τ).loc main_arg1) :=
  StableHlo.after_of_writes_sub hostOps0 _ hostOps0_writes (show main_arg1 ∉ hostOps0_W by decide)
theorem atR0_arg2 (c : Dev nD) : atR0 m ρ c (Proc.devRef .tc main_arg2) = m ((c : Thread nD τ).loc main_arg2) :=
  StableHlo.after_of_writes_sub hostOps0 _ hostOps0_writes (show main_arg2 ∉ hostOps0_W by decide)

/-! ## What the second region finds -/

theorem inR1_v0 (c : Dev nD) : inR1 m ρ c main_v0 = inR0 m ρ c main_v0 :=
  (afterR0_arr m ρ c 0).trans (((dat0 (inR0 m ρ) c).arrAt_in 0 rfl _).trans (A_eq0 (inR0 m ρ) c 0))
theorem inR1_arg1 (c : Dev nD) : inR1 m ρ c main_arg1 = inR0 m ρ c main_arg1 := afterR0_of_ne m ρ c main_arg1 (by decide)
theorem inR1_v3 (c : Dev nD) : inR1 m ρ c main_v3 = inR0 m ρ c main_v3 := afterR0_of_ne m ρ c main_v3 (by decide)
theorem inR1_v2 (c : Dev nD) : inR1 m ρ c main_v2 = inR0 m ρ c main_v2 := afterR0_of_ne m ρ c main_v2 (by decide)
theorem inR1_v4 (c : Dev nD) : inR1 m ρ c main_v4 = (dat0 (inR0 m ρ) c).arrAt 2 cfg0.N := afterR0_arr m ρ c 2

/-! ## The end -/

theorem atEnd_v6 (c : Dev nD) :
    (atEnd m ρ c (Proc.devRef .tc main_v6) : S2x4096x4096.Idx → EReal)
      = shapeCast S2x4096x4096 (afterR1 m ρ c (Proc.devRef .tc main_v5) : S8192x4096.Idx → EReal) shapeCasts_S8192x4096_S2x4096x4096 := by
  show StableHlo.after hostOps2 _ (Proc.devRef .tc main_v6) = _
  after_results
  try rfl

/-! ## The layouts read at an index -/

/-- Row 4096·b + s of the flattened x is x[b, s, ·]. -/
theorem flat_x (x : S2x4096x4096.Idx → EReal) (b : Fin 2) (s : Fin 4096) (d : Fin 4096) :
    shapeCast S8192x4096 x shapeCasts_S2x4096x4096_S8192x4096 (ix2 (⟨4096 * b.val + s.val, by have := b.isLt; have := s.isLt; omega⟩ : Fin 8192) d)
      = x (ix3 b s d) := by
  refine shapeCast_apply x _ _ _ ?_
  rw [Shape.rowMajor_val_three, Shape.rowMajor_val_two]
  show (b.val * 4096 + s.val) * 4096 + d.val = (4096 * b.val + s.val) * 4096 + d.val
  omega

/-- The bias as a row. -/
theorem row_bias (bias : S4096.Idx → EReal) (n : Fin 4096) :
    shapeCast S1x4096 bias shapeCasts_S4096_S1x4096 (ix2 (0 : Fin 1) n) = bias (ix1 n) := by
  refine shapeCast_apply bias _ _ _ ?_
  rw [Shape.rowMajor_val_one, Shape.rowMajor_val_two]
  show n.val = 0 * 4096 + n.val
  omega

/-- The result unflattened: y[b, s, n] is row 4096·b + s of the flat result. -/
theorem unflat_y (y : S8192x4096.Idx → EReal) (b : Fin 2) (s : Fin 4096) (n : Fin 4096) :
    shapeCast S2x4096x4096 y shapeCasts_S8192x4096_S2x4096x4096 (ix3 b s n)
      = y (ix2 (⟨4096 * b.val + s.val, by have := b.isLt; have := s.isLt; omega⟩ : Fin 8192) n) := by
  refine shapeCast_apply y _ _ _ ?_
  rw [Shape.rowMajor_val_three, Shape.rowMajor_val_two]
  show (4096 * b.val + s.val) * 4096 + n.val = (b.val * 4096 + s.val) * 4096 + n.val
  omega

/-! ## The flat result is the program's result -/

/-- The specification's sums at explicit coordinates. -/
theorem hval_at (x : Cert.Spec.Sx2.Idx → EReal) (A : Cert.Spec.SA.Idx → EReal) (p : Fin 8192) (r : Fin 16) :
    Cert.Spec.hval x A (ix2 p r) = ∑ d : Fin 4096, x (ix2 p d) * A (ix2 r d) := rfl
theorem yval_at (x : Cert.Spec.Sx2.Idx → EReal) (W : Cert.Spec.SW.Idx → EReal) (b2 : Cert.Spec.Sb2.Idx → EReal) (h : Cert.Spec.Sh.Idx → EReal)
    (Bs : Cert.Spec.SB.Idx → EReal) (p : Fin 8192) (q : Fin 4096) :
    Cert.Spec.yval x W b2 h Bs (ix2 p q)
      = ((∑ d : Fin 4096, x (ix2 p d) * W (ix2 q d)) + b2 (ix2 0 q)) + ∑ r : Fin 16, h (ix2 p r) * Bs (ix2 q r) := rfl
theorem G_at (x : Cert.Spec.Sx3.Idx → EReal) (W : Cert.Spec.SW.Idx → EReal) (A : Cert.Spec.SA.Idx → EReal) (B : Cert.Spec.SB.Idx → EReal)
    (bias : Cert.Spec.Sb1.Idx → EReal) (b : Fin 2) (s n : Fin 4096) :
    Cert.Spec.G x W A B bias (ix3 b s n)
      = ((∑ d : Fin 4096, x (ix3 b s d) * W (ix2 n d)) + bias (ix1 n)) + ∑ r : Fin 16, (∑ d : Fin 4096, x (ix3 b s d) * A (ix2 r d)) * B (ix2 n r) := rfl

/-- Multiplying entrywise by the constant one changes nothing: 1 · b = b on the extended reals. -/
theorem one_times (B : S4096x16.Idx → EReal) :
    mulf (broadcastInDim S4096x16 ![] bcast_S_S4096x16 (constant (F := Ideal) S_ .f32 0x3F800000#32)) B = B := by
  funext j
  show FloatOps.mulf (broadcastInDim S4096x16 ![] bcast_S_S4096x16 (constant (F := Ideal) S_ .f32 0x3F800000#32) j) (B j) = B j
  rw [broadcastInDim_apply _ bcast_S_S4096x16 _ j (fun a => a.elim0) (fun a => a.elim0)]
  show FloatOps.mulf (FloatOps.ofBits (F := Ideal) .f32 0x3F800000#32) (B j) = B j
  simp only [Ideal.mulf_def, Ideal.ofBits_def, Cert.Spec.ofBits_one, one_mul]

/-- The second region's sum over the flattened rows, of the flattened x, W, the bias row, the first region's sum of the
    flattened x and A, and 1 · B, reshaped to [2, 4096, 4096], is G of the five arguments. -/
theorem flat_result (x : S2x4096x4096.Idx → EReal) (W : S4096x4096.Idx → EReal) (A : S16x4096.Idx → EReal) (B : S4096x16.Idx → EReal) (bias : S4096.Idx → EReal) :
    shapeCast S2x4096x4096
      (Cert.Spec.yval (shapeCast S8192x4096 x shapeCasts_S2x4096x4096_S8192x4096) W (shapeCast S1x4096 bias shapeCasts_S4096_S1x4096)
        (Cert.Spec.hval (shapeCast S8192x4096 x shapeCasts_S2x4096x4096_S8192x4096) A)
        (mulf (broadcastInDim S4096x16 ![] bcast_S_S4096x16 (constant (F := Ideal) S_ .f32 0x3F800000#32)) B))
      shapeCasts_S8192x4096_S2x4096x4096
    = Cert.Spec.G x W A B bias := by
  rw [one_times]
  funext i
  obtain ⟨b, s, n, rfl⟩ : ∃ (b : Fin 2) (s : Fin 4096) (n : Fin 4096), i = ix3 b s n := ⟨i 0, i 1, i 2, eq_ix3 i⟩
  rw [unflat_y, yval_at, G_at]
  simp only [hval_at, flat_x, row_bias]

end Cert.KernelIdeal.Hand

end
-- ==== Proof.Value0.lean ====
/-
  The first region's result, over the extended reals. The region walks 8 row blocks × 4 slabs of the contraction; at
  point t = 4·i + k it reads block (i, k) of the flattened activations x2 and block (0, k) of the matrix A, and adds to
  its accumulator, at entry (p, q), the slab sum ∑_{d < 1024} x2[1024·i + p, 1024·k + d] · A[q, 1024·k + d] (the accumulator
  being zeroed first at k = 0). So after point 4·i + k the accumulator's entry (p, q) is the slabs 0 … k of the products of
  row 1024·i + p against row q, accumulated from zero left to right; at k = 3 that is the whole contraction, by
  associativity alone. The accumulator is then stored into the result window's buffer and written back as block (i, 0)
  of h; the eight blocks tile h, so the array ends at h[m, r] = ∑_d x2[m, d] · A[r, d].
-/
import proofs.«178149_j16561393893679_1_alg».proof.Proof.KernelIdeal.Region0
import proofs.«178149_j16561393893679_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Pieces
variable {F : FTy → Type} [FloatOps F]

/-- The zero offsets of a whole-buffer access, however they are spelt. -/
theorem hz0 : (![0, 0] : Fin 2 → Nat) = fun _ => 0 := funext fun a => by fin_cases a <;> rfl

/-- At a slab-0 point the accumulator is zeroed and the slab's product added: it ends at the update of the zero block. -/
theorem acc0_A (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : cond0_0 i) (hc1 : ¬cond0_1 i)
    (x0 : Vec F S1024x1024 .f32) (x1 : Vec F S16x1024 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S1024x16) hz0]
  simp only [View.readAt_eq_ld, harg2.read_unread, harg3.read_unread, View.ld_unit_zero (S := S1024x1024) hz0, View.ld_unit_zero (S := S16x1024) hz0, View.readCov_unit_zero (S := S1024x16) _ hz0]

/-- At a middle point the slab's product is added to what the accumulator held. -/
theorem acc0_B (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : ¬cond0_1 i)
    (x0 : Vec F S1024x1024 .f32) (x1 : Vec F S16x1024 .f32) (xs0 : Vec F S1024x16 .f32) :
    sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero (S := S1024x16) hz0]
  simp only [View.readAt_eq_ld, harg2.read_unread, harg3.read_unread, harg5.read_unread, View.ld_unit_zero (S := S1024x1024) hz0, View.ld_unit_zero (S := S16x1024) hz0, View.ld_unit_zero (S := S1024x16) hz0]

/-- At the last slab likewise, -/
theorem acc0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) :
    sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero (S := S1024x16) hz0]
  simp only [View.readAt_eq_ld, harg2.read_unread, harg3.read_unread, harg5.read_unread, View.ld_unit_zero (S := S1024x1024) hz0, View.ld_unit_zero (S := S16x1024) hz0, View.ld_unit_zero (S := S1024x16) hz0]

/-- and the accumulator, read back whole, is what the result window's buffer is left at. -/
theorem res0_C (c : Dev nD) (i : grid0.Coords) (arg2 : Memref sig .tc .vmem S1024x1024 .f32) (harg2 : arg2.IsWhole) (arg3 : Memref sig .tc .vmem S16x1024 .f32) (harg3 : arg3.IsWhole) (arg4 : Memref sig .tc .vmem S1024x16 .f32) (harg4 : arg4.IsWhole) (arg5 : Memref sig .tc .vmem S1024x16 .f32) (harg5 : arg5.IsWhole) (hc0 : ¬cond0_0 i) (hc1 : cond0_1 i)
    (x0 : Vec F S1024x1024 .f32) (x1 : Vec F S16x1024 .f32) (xs0 : Vec F S1024x16 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024x16) hz0]
  simp only [View.readAt_eq_ld, harg2.read_unread, harg3.read_unread, harg5.read_unread, View.ld_unit_zero (S := S1024x1024) hz0, View.ld_unit_zero (S := S16x1024) hz0, View.ld_unit_zero (S := S1024x16) hz0, View.readCov_unit_zero (S := S1024x16) _ hz0]

end Pieces

/-! ## The slab update at an entry, over the extended reals -/

section Payload

/-- The block product's left operand is read at row p of the result entry, -/
theorem mm0_lhs_0 (j : S1024x16.Idx) (k : dot_S1024x1024_S16x1024_S1024x16_1_1_0_0_n_n.contr.Idx) :
    (dot_S1024x1024_S16x1024_S1024x16_1_1_0_0_n_n.lhsIdx j k 0).val = (j 0).val := by
  unfold DotDims.lhsIdx
  rw [dif_neg (show ¬(0 : Fin S1024x1024.rank) ∈ dot_S1024x1024_S16x1024_S1024x16_1_1_0_0_n_n.lhsBatch by decide), dif_pos (show (0 : Fin S1024x1024.rank) ∈ dot_S1024x1024_S16x1024_S1024x16_1_1_0_0_n_n.lhsNonContracting by decide)]
  rfl
/-- at the contraction position; -/
theorem mm0_lhs_1 (j : S1024x16.Idx) (k : dot_S1024x1024_S16x1024_S1024x16_1_1_0_0_n_n.contr.Idx) :
    (dot_S1024x1024_S16x1024_S1024x16_1_1_0_0_n_n.lhsIdx j k 1).val = (k ⟨0, by decide⟩).val :=
  dot_S1024x1024_S16x1024_S1024x16_1_1_0_0_n_n.lhsIdx_val_of_single rfl j k
/-- the right operand at row q of the result entry's column, -/
theorem mm0_rhs_0 (j : S1024x16.Idx) (k : dot_S1024x1024_S16x1024_S1024x16_1_1_0_0_n_n.contr.Idx) :
    (dot_S1024x1024_S16x1024_S1024x16_1_1_0_0_n_n.rhsIdx j k 0).val = (j 1).val := by
  unfold DotDims.rhsIdx
  rw [dif_neg (show ¬(0 : Fin S16x1024.rank) ∈ dot_S1024x1024_S16x1024_S1024x16_1_1_0_0_n_n.rhsBatch by decide), dif_pos (show (0 : Fin S16x1024.rank) ∈ dot_S1024x1024_S16x1024_S1024x16_1_1_0_0_n_n.rhsNonContracting by decide)]
  rfl
/-- at the contraction position. -/
theorem mm0_rhs_1 (j : S1024x16.Idx) (k : dot_S1024x1024_S16x1024_S1024x16_1_1_0_0_n_n.contr.Idx) :
    (dot_S1024x1024_S16x1024_S1024x16_1_1_0_0_n_n.rhsIdx j k 1).val = (k ⟨0, by decide⟩).val :=
  dot_S1024x1024_S16x1024_S1024x16_1_1_0_0_n_n.rhsIdx_val_of_single rfl j k

/-- The block product from zero at entry (p, q): row p of the left block against row q of the right one. -/
theorem mm0_apply (x : FVec Ideal S1024x1024 .bf16) (a : FVec Ideal S16x1024 .bf16) (p : Fin 1024) (q : Fin 16) :
    FloatOps.matmul dot_S1024x1024_S16x1024_S1024x16_1_1_0_0_n_n none x a (constant (F := Ideal) S1024x16 .f32 0x00000000#32) (ix2 p q)
      = ∑ d : Fin 1024, x (ix2 p d) * a (ix2 q d) := by
  rw [Ideal.matmul_constant_zero_apply, ← Equiv.sum_comp (contrEquiv1 dot_S1024x1024_S16x1024_S1024x16_1_1_0_0_n_n 1024 rfl rfl).symm]
  refine Finset.sum_congr rfl fun k _ => ?_
  have hk := contrEquiv1_symm_val dot_S1024x1024_S16x1024_S1024x16_1_1_0_0_n_n 1024 rfl rfl k
  have el : dot_S1024x1024_S16x1024_S1024x16_1_1_0_0_n_n.lhsIdx (ix2 p q) ((contrEquiv1 dot_S1024x1024_S16x1024_S1024x16_1_1_0_0_n_n 1024 rfl rfl).symm k) = ix2 p k := funext fun b => Fin.ext (by
    match b with
    | ⟨0, _⟩ => exact mm0_lhs_0 _ _
    | ⟨1, _⟩ => exact (mm0_lhs_1 _ _).trans hk)
  have er : dot_S1024x1024_S16x1024_S1024x16_1_1_0_0_n_n.rhsIdx (ix2 p q) ((contrEquiv1 dot_S1024x1024_S16x1024_S1024x16_1_1_0_0_n_n 1024 rfl rfl).symm k) = ix2 q k := funext fun b => Fin.ext (by
    match b with
    | ⟨0, _⟩ => exact mm0_rhs_0 _ _
    | ⟨1, _⟩ => exact (mm0_rhs_1 _ _).trans hk)
  rw [el, er]

/-- The slab update at entry (p, q): what was there plus the slab's sum (the casts are identities, the narrowing to
    16 bits changes nothing over the extended reals). -/
theorem pay0_2_apply (x : Vec Ideal S1024x1024 .f32) (a : Vec Ideal S16x1024 .f32) (s : Vec Ideal S1024x16 .f32) (p : Fin 1024) (q : Fin 16) :
    k0_pay2 (F := Ideal) x a s (ix2 p q) = s (ix2 p q) + ∑ d : Fin 1024, x (ix2 p d) * a (ix2 q d) := by
  unfold k0_pay2
  refine (congrFun (shapeCast_self _ _) (ix2 p q)).trans ?_
  refine congrArg (s (ix2 p q) + ·) ?_
  refine (mm0_apply _ _ p q).trans ?_
  refine Finset.sum_congr rfl fun d _ => ?_
  exact congrArg (· * a (ix2 q d)) (congrFun (shapeCast_self x _) (ix2 p d))

/-- The block the accumulator is reset to is zero everywhere. -/
theorem pay0_1_apply (j : S1024x16.Idx) : k0_pay1 (F := Ideal) j = 0 := by
  unfold k0_pay1
  refine (congrFun (shapeCast_self _ _) j).trans ?_
  exact Ideal.ofBits_zero_f32

end Payload

/-! ## The blocks the body reads, as entries of the arrays the region finds -/

section Blocks
variable (V : (c : Dev nD) → (b : Ref sig .tc) → Buf (Elt Ideal) ((c : Thread nD τ).loc b))

/-- The flattened activations and the down-projection matrix as the region finds them. -/
abbrev xarr0 (c : Dev nD) : Cert.Spec.Sx2.Idx → EReal := V c main_v0
abbrev aarr0 (c : Dev nD) : Cert.Spec.SA.Idx → EReal := V c main_arg2
/-- Their blocks at a point. -/
abbrev xblk0 (c : Dev nD) (t : Fin cfg0.N) : S1024x1024.Idx → EReal := iblk0 V c 0 t
abbrev ablk0 (c : Dev nD) (t : Fin cfg0.N) : S16x1024.Idx → EReal := iblk0 V c 1 t

/-- Point t = 4·i + k reads block (i, k) of the activations, block (0, k) of the matrix, and owns block (i, 0) of the result. -/
theorem blkidx0 : ∀ t : Fin cfg0.N, win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N, _)

/-- Entry (p, d) of the activations' block at point t is entry (1024·(t / 4) + p, 1024·(t mod 4) + d) of the array. -/
theorem xblk0_apply (c : Dev nD) (t : Fin cfg0.N) (p d : Fin 1024) (m : Fin 8192) (e : Fin 4096)
    (hm : m.val = 1024 * (t.val / 4) + p.val) (he : e.val = 1024 * (t.val % 4) + d.val) :
    xblk0 V c t (ix2 p d) = xarr0 V c (ix2 m e) := by
  obtain ⟨e0, e1, -, -, -, -⟩ := blkidx0 t
  show V c main_v0 (((cfg0.win 0).blk t).view.emb (ix2 p d)) = V c main_v0 (ix2 m e)
  refine congrArg (V c main_v0) ?_
  funext b; apply Fin.ext
  match b with
  | ⟨0, _⟩ => show win0_0.index t (0 : Fin 2) * 1024 + 1 * p.val = m.val; omega
  | ⟨1, _⟩ => show win0_0.index t (1 : Fin 2) * 1024 + 1 * d.val = e.val; omega

/-- Entry (q, d) of the matrix's block at point t is entry (q, 1024·(t mod 4) + d) of the matrix. -/
theorem ablk0_apply (c : Dev nD) (t : Fin cfg0.N) (q : Fin 16) (d : Fin 1024) (e : Fin 4096)
    (he : e.val = 1024 * (t.val % 4) + d.val) :
    ablk0 V c t (ix2 q d) = aarr0 V c (ix2 q e) := by
  obtain ⟨-, -, e0, e1, -, -⟩ := blkidx0 t
  show V c main_arg2 (((cfg0.win 1).blk t).view.emb (ix2 q d)) = V c main_arg2 (ix2 q e)
  refine congrArg (V c main_arg2) ?_
  funext b; apply Fin.ext
  match b with
  | ⟨0, _⟩ => show win0_1.index t (0 : Fin 2) * 16 + 1 * q.val = q.val; omega
  | ⟨1, _⟩ => show win0_1.index t (1 : Fin 2) * 1024 + 1 * d.val = e.val; omega

/-- So the slab product the body forms at point t, at entry (p, q), is slab t mod 4 of row 1024·(t / 4) + p of the
    activations against row q of the matrix. -/
theorem slab0_eq (c : Dev nD) (t : Fin cfg0.N) (p : Fin 1024) (q : Fin 16) (m : Fin 8192) (k : Fin 4)
    (hm : m.val = 1024 * (t.val / 4) + p.val) (hk : k.val = t.val % 4) :
    ∑ d : Fin 1024, xblk0 V c t (ix2 p d) * ablk0 V c t (ix2 q d)
      = Cert.Spec.slab (fun e => xarr0 V c (ix2 m e) * aarr0 V c (ix2 q e)) k := by
  unfold Cert.Spec.slab
  refine Finset.sum_congr rfl fun d _ => ?_
  have he : (⟨1024 * k.val + d.val, by have := k.isLt; have := d.isLt; omega⟩ : Fin 4096).val = 1024 * (t.val % 4) + d.val := by
    show 1024 * k.val + d.val = _; rw [hk]
  exact congrArg₂ (· * ·) (xblk0_apply V c t p d m _ hm he) (ablk0_apply V c t q d _ he)

end Blocks

/-! ## The accumulator, point by point -/

section Invariant
variable (V : (c : Dev nD) → (b : Ref sig .tc) → Buf (Elt Ideal) ((c : Thread nD τ).loc b))

/-- The products of row m of the activations against row q of the matrix, along the contraction. -/
abbrev rowf0 (c : Dev nD) (m : Fin 8192) (q : Fin 16) : Fin 4096 → EReal := fun e => xarr0 V c (ix2 m e) * aarr0 V c (ix2 q e)

/-- The slabs 0 … k of a family accumulated from zero, left to right. -/
def accN0 (f : Fin 4096 → EReal) : ℕ → EReal
  | 0 => 0 + Cert.Spec.slab f 0
  | k + 1 => accN0 f k + Cert.Spec.slab f ⟨(k + 1) % 4, Nat.mod_lt _ (by decide)⟩

/-- After the fourth slab that is the whole sum. -/
theorem accN0_three (f : Fin 4096 → EReal) : accN0 f 3 = ∑ d : Fin 4096, f d :=
  (show accN0 f 3 = (((0 + Cert.Spec.slab f 0) + Cert.Spec.slab f 1) + Cert.Spec.slab f 2) + Cert.Spec.slab f 3 from rfl).trans (Cert.Spec.sum_slabs f)

/-- At a slab-0 point the accumulator ends at zero plus slab 0 of its row. -/
theorem acc0_first (c : Dev nD) (t : Fin cfg0.N) (h0 : t.val % 4 = 0) (p : Fin 1024) (q : Fin 16) (m : Fin 8192)
    (hm : m.val = 1024 * (t.val / 4) + p.val) :
    ((outsAt0 V c t.val t.isLt).2 : S1024x16.Idx → EReal) (ix2 p q) = accN0 (rowf0 V c m q) 0 := by
  have h1 : ¬t.val % 4 = 3 := by omega
  rw [outsAt0_A V c t h0 h1]
  dsimp only
  refine (congrFun (acc0_A (F := Ideal) c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) (ix2 p q)).trans ?_
  refine (pay0_2_apply (iblk0 V c 0 t) (iblk0 V c 1 t) (k0_pay1 (F := Ideal)) p q).trans ?_
  exact congrArg₂ (· + ·) (pay0_1_apply (ix2 p q)) (slab0_eq V c t p q m 0 hm h0.symm)

/-- At any other point it ends at what the point before left plus the point's slab of the same row. -/
theorem acc0_step (c : Dev nD) (t : Fin cfg0.N) (h0 : ¬t.val % 4 = 0) (p : Fin 1024) (q : Fin 16) (m : Fin 8192)
    (hm : m.val = 1024 * (t.val / 4) + p.val)
    (ih : ((outsAt0 V c (t.val - 1) (Nat.lt_of_le_of_lt (Nat.sub_le _ _) t.isLt)).2 : S1024x16.Idx → EReal) (ix2 p q) = accN0 (rowf0 V c m q) ((t.val - 1) % 4)) :
    ((outsAt0 V c t.val t.isLt).2 : S1024x16.Idx → EReal) (ix2 p q) = accN0 (rowf0 V c m q) (t.val % 4) := by
  have e : t.val % 4 = (t.val - 1) % 4 + 1 := by omega
  have hk : (⟨((t.val - 1) % 4 + 1) % 4, Nat.mod_lt _ (by decide)⟩ : Fin 4).val = t.val % 4 := by
    show ((t.val - 1) % 4 + 1) % 4 = t.val % 4; omega
  refine Eq.trans ?_ (congrArg (accN0 (rowf0 V c m q)) e).symm
  show _ = accN0 (rowf0 V c m q) ((t.val - 1) % 4) + Cert.Spec.slab (rowf0 V c m q) ⟨((t.val - 1) % 4 + 1) % 4, Nat.mod_lt _ (by decide)⟩
  by_cases h1 : t.val % 4 = 3
  · rw [outsAt0_C V c t h0 h1]
    dsimp only
    refine (congrFun (acc0_C (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) (ix2 p q)).trans ?_
    refine (pay0_2_apply (iblk0 V c 0 t) (iblk0 V c 1 t) (outsAt0 V c (t.val - 1) (Nat.lt_of_le_of_lt (Nat.sub_le _ _) t.isLt)).2 p q).trans ?_
    exact congrArg₂ (· + ·) ih (slab0_eq V c t p q m _ hm hk)
  · rw [outsAt0_B V c t h0 h1]
    dsimp only
    refine (congrFun (acc0_B (F := Ideal) c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) (ix2 p q)).trans ?_
    refine (pay0_2_apply (iblk0 V c 0 t) (iblk0 V c 1 t) (outsAt0 V c (t.val - 1) (Nat.lt_of_le_of_lt (Nat.sub_le _ _) t.isLt)).2 p q).trans ?_
    exact congrArg₂ (· + ·) ih (slab0_eq V c t p q m _ hm hk)

/-- So after point t = 4·i + k the accumulator's entry (p, q) is the slabs 0 … k of row 1024·i + p against row q,
    accumulated from zero: by induction on the point. -/
theorem acc0_inv (c : Dev nD) : ∀ (n : ℕ) (t : Fin cfg0.N), t.val = n → ∀ (p : Fin 1024) (q : Fin 16) (m : Fin 8192),
    m.val = 1024 * (t.val / 4) + p.val →
    ((outsAt0 V c t.val t.isLt).2 : S1024x16.Idx → EReal) (ix2 p q) = accN0 (rowf0 V c m q) (t.val % 4)
  | 0, t, ht, p, q, m, hm => by
    have h0 : t.val % 4 = 0 := by rw [ht]
    exact (acc0_first V c t h0 p q m hm).trans (congrArg (accN0 (rowf0 V c m q)) h0).symm
  | n + 1, t, ht, p, q, m, hm => by
    by_cases h0 : t.val % 4 = 0
    · exact (acc0_first V c t h0 p q m hm).trans (congrArg (accN0 (rowf0 V c m q)) h0).symm
    · have hlt : t.val - 1 < cfg0.N := Nat.lt_of_le_of_lt (Nat.sub_le _ _) t.isLt
      have hm' : m.val = 1024 * ((⟨t.val - 1, hlt⟩ : Fin cfg0.N).val / 4) + p.val := by
        show m.val = 1024 * ((t.val - 1) / 4) + p.val; omega
      exact acc0_step V c t h0 p q m hm
        (acc0_inv c n ⟨t.val - 1, hlt⟩ (by show t.val - 1 = n; omega) p q m hm')

end Invariant

/-! ## From the blocks written back to the result array -/

section Final
variable (V : (c : Dev nD) → (b : Ref sig .tc) → Buf (Elt Ideal) ((c : Thread nD τ).loc b))

/-- At a last-slab point the result window's buffer is left at what the accumulator ends at. -/
theorem res0_eq_acc (c : Dev nD) (t : Fin cfg0.N) (h0 : ¬t.val % 4 = 0) (h3 : t.val % 4 = 3) :
    (outsAt0 V c t.val t.isLt).1 = (outsAt0 V c t.val t.isLt).2 := by
  rw [outsAt0_C V c t h0 h3]
  dsimp only
  exact (res0_C (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h3) (iblk0 V c 0 t) (iblk0 V c 1 t) (outsAt0 V c (t.val - 1) (Nat.lt_of_le_of_lt (Nat.sub_le _ _) t.isLt)).2).trans
    (acc0_C (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h3) (iblk0 V c 0 t) (iblk0 V c 1 t) (outsAt0 V c (t.val - 1) (Nat.lt_of_le_of_lt (Nat.sub_le _ _) t.isLt)).2).symm

/-- What a last-slab point writes back is its block of the down-projection of the arrays the region finds: entry
    (p, q) of block i is the whole contraction of row 1024·i + p against row q. -/
theorem flushed0_eq (c : Dev nD) (t : Fin cfg0.N) (hf : (cfg0.win 2).flush t = true) :
    (dat0 (F := Ideal) V c).flushed 2 t
      = ((cfg0.win 2).blk t).view.read (Elt Ideal) (Cert.Spec.hval (xarr0 V c) (aarr0 V c)) := by
  have h3 : t.val % 4 = 3 := (flush0_2 t).mp hf
  have h0 : ¬t.val % 4 = 0 := by omega
  have hN : t.val < 32 := lt_of_lt_of_eq t.isLt (show cfg0.N = 32 from N_0)
  obtain ⟨-, -, -, -, e0, e1⟩ := blkidx0 t
  show (cfg0.win 2).cut (grid0.coords t) ((dat0 (F := Ideal) V c).after 2 t) = _
  rw [after0_2, res0_eq_acc V c t h0 h3]
  funext y
  obtain ⟨p, q, rfl⟩ : ∃ (p : Fin 1024) (q : Fin 16), y = ix2 p q := ⟨y 0, y 1, eq_ix2 y⟩
  have hmlt : 1024 * (t.val / 4) + p.val < 8192 := by have := p.isLt; omega
  have hemb : ((cfg0.win 2).blk t).view.emb (ix2 p q) = (ix2 (⟨1024 * (t.val / 4) + p.val, hmlt⟩ : Fin 8192) q : Cert.Spec.Sh.Idx) := by
    funext b; apply Fin.ext
    match b with
    | ⟨0, _⟩ => show win0_2.index t (0 : Fin 2) * 1024 + 1 * p.val = 1024 * (t.val / 4) + p.val; omega
    | ⟨1, _⟩ => show win0_2.index t (1 : Fin 2) * 16 + 1 * q.val = q.val; omega
  show ((outsAt0 V c t.val t.isLt).2 : S1024x16.Idx → EReal) (ix2 p q) = Cert.Spec.hval (xarr0 V c) (aarr0 V c) (((cfg0.win 2).blk t).view.emb (ix2 p q))
  rw [hemb]
  refine (acc0_inv V c t.val t rfl p q ⟨1024 * (t.val / 4) + p.val, hmlt⟩ rfl).trans ?_
  refine (congrArg (accN0 (rowf0 V c ⟨1024 * (t.val / 4) + p.val, hmlt⟩ q)) h3).trans ?_
  exact accN0_three _

/-- An entry of the result array lies in point t's block iff each coordinate lies in the block's range on its axis. -/
theorem mem_blk0 (t : Fin cfg0.N) (i : Cert.Spec.Sh.Idx) :
    i ∈ ((cfg0.win 2).blk t).view.set ↔ ∀ a : Fin 2, win0_2.index t a * S1024x16.size a ≤ (i a).val ∧ (i a).val < win0_2.index t a * S1024x16.size a + S1024x16.size a := by
  show i ∈ ((View.whole main_v4).slice (win0_2.rect t)).set ↔ _
  rw [View.set_slice_whole, Rect.mem_set_unit]
  exact Iff.rfl

/-- Row m of the result lies in the block written back at the last slab of row block m / 1024. -/
theorem covered0 (i : Cert.Spec.Sh.Idx) : ∃ t : Fin cfg0.N, (cfg0.win 2).flush t = true ∧ i ∈ ((cfg0.win 2).blk t).view.set := by
  have hi0 : (i 0).val < 8192 := (i 0).isLt
  have hi1 : (i 1).val < 16 := (i 1).isLt
  have hN : cfg0.N = 32 := N_0
  have ht : 4 * ((i 0).val / 1024) + 3 < cfg0.N := by rw [hN]; omega
  refine ⟨⟨4 * ((i 0).val / 1024) + 3, ht⟩, (flush0_2 _).mpr (by show (4 * ((i 0).val / 1024) + 3) % 4 = 3; omega), ?_⟩
  obtain ⟨-, -, -, -, e0, e1⟩ := blkidx0 ⟨4 * ((i 0).val / 1024) + 3, ht⟩
  have e0' : win0_2.index ⟨4 * ((i 0).val / 1024) + 3, ht⟩ (0 : Fin 2) = (4 * ((i 0).val / 1024) + 3) / 4 := e0
  rw [mem_blk0]
  intro a
  match a with
  | ⟨0, _⟩ => show win0_2.index ⟨4 * ((i 0).val / 1024) + 3, ht⟩ (0 : Fin 2) * 1024 ≤ (i 0).val ∧ (i 0).val < win0_2.index ⟨4 * ((i 0).val / 1024) + 3, ht⟩ (0 : Fin 2) * 1024 + 1024; omega
  | ⟨1, _⟩ => show win0_2.index ⟨4 * ((i 0).val / 1024) + 3, ht⟩ (1 : Fin 2) * 16 ≤ (i 1).val ∧ (i 1).val < win0_2.index ⟨4 * ((i 0).val / 1024) + 3, ht⟩ (1 : Fin 2) * 16 + 16; omega

/-- The region's result array after its last point is the down-projection of what the region found in the
    flattened activations and the matrix. -/
theorem arr0_final (c : Dev nD) :
    (dat0 (F := Ideal) V c).arrAt 2 cfg0.N = (Cert.Spec.hval (V c main_v0) (V c main_arg2) : Cert.Spec.Sh.Idx → EReal) :=
  (dat0 (F := Ideal) V c).arrAt_eq_of_cover 2 (Cert.Spec.hval (xarr0 V c) (aarr0 V c)) (fun t hf => flushed0_eq V c t hf) covered0

end Final

end Cert.KernelIdeal.Hand

end
-- ==== Proof.Value1.lean ====
/-
  The second region's result array, read as values over the extended reals. Each of the body's three cases leaves in the
  accumulator one slab's product added to what it held (zero at a step's first slab); the last slab also leaves, in the
  result window's buffer, the accumulator plus the bias row plus the rank-16 product. Point by point the accumulator after
  slab k of output block (i, j) is the left-to-right sum of slabs 0 … k of x2[1024 i + p, d] · W[1024 j + q, d]; at k = 3
  that is the whole contraction, so the block written back there is the block of the fused result, and these blocks tile
  the array.
-/
import proofs.«178149_j16561393893679_1_alg».proof.Proof.KernelIdeal.Region1
import proofs.«178149_j16561393893679_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What each case leaves, as the payloads of the blocks it read -/

section Pieces
variable {F : FTy → Type} [FloatOps F]

theorem hz1 : (![0, 0] : Fin 2 → Nat) = fun _ => 0 := funext fun a => by fin_cases a <;> rfl

/-- A step's first slab: the accumulator is zeroed, read back, and the slab's product added. -/
theorem sout1_A_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : cond1_0 i) (hc1 : ¬cond1_1 i) (x0 : Vec F S1024x1024 .f32) (x1 : Vec F S1024x1024 .f32) :
    sout1_A c i arg3 harg3 arg4 harg4 arg5 harg5 arg6 harg6 arg7 harg7 arg8 harg8 arg9 harg9 hc0 hc1 x0 x1 = k1_pay2 x0 x1 (k1_pay1 (F := F)) := by
  unfold sout1_A
  rw [View.read_writes_eq_canon _ _ _ (scover1_A c i arg3 harg3 arg4 harg4 arg5 harg5 arg6 harg6 arg7 harg7 arg8 harg8 arg9 harg9 hc0 hc1 x0 x1)]
  unfold kernelRun1_A
  dsimp only
  sl_unfold_words
  rw [View.canon_cons_unit_zero (S := S1024x1024) hz1, View.readCov_unit_zero (S := S1024x1024) _ hz1]
  simp only [View.readAt_eq_ld, harg3.read_unread, harg4.read_unread, View.ld_unit_zero (S := S1024x1024) hz1]

/-- A middle slab: the slab's product is added to what the accumulator held. -/
theorem sout1_B_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : ¬cond1_1 i) (x0 : Vec F S1024x1024 .f32) (x1 : Vec F S1024x1024 .f32) (xs0 : Vec F S1024x1024 .f32) :
    sout1_B c i arg3 harg3 arg4 harg4 arg5 harg5 arg6 harg6 arg7 harg7 arg8 harg8 arg9 harg9 hc0 hc1 x0 x1 xs0 = k1_pay2 x0 x1 xs0 := by
  unfold sout1_B
  rw [View.read_writes_eq_canon _ _ _ (scover1_B c i arg3 harg3 arg4 harg4 arg5 harg5 arg6 harg6 arg7 harg7 arg8 harg8 arg9 harg9 hc0 hc1 x0 x1 xs0)]
  unfold kernelRun1_B
  dsimp only
  sl_unfold_words
  rw [View.canon_unit_zero hz1]
  simp only [View.readAt_eq_ld, harg3.read_unread, harg4.read_unread, harg9.read_unread, View.ld_unit_zero (S := S1024x1024) hz1]

/-- The last slab, in the accumulator: the slab's product is added to what it held. -/
theorem sout1_C_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) :
    sout1_C c i arg3 harg3 arg4 harg4 arg5 harg5 arg6 harg6 arg7 harg7 arg8 harg8 arg9 harg9 hc0 hc1 x0 x1 x2 x3 x4 xs0 = k1_pay2 x0 x1 xs0 := by
  unfold sout1_C
  rw [View.read_writes_eq_canon _ _ _ (scover1_C c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz1]
  simp only [View.readAt_eq_ld, harg3.read_unread, harg4.read_unread, harg9.read_unread, View.ld_unit_zero (S := S1024x1024) hz1]

/-- The last slab, in the result window's buffer: the accumulator as just updated, plus the bias row down the rows, plus
    the product of the two rank-16 factors. -/
theorem out1_C_5_eq (c : Dev nD) (i : grid1.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1024x1024 .f32) (harg8 : arg8.IsWhole) (arg9 : Memref sig .tc .vmem S1024x1024 .f32) (harg9 : arg9.IsWhole) (hc0 : ¬cond1_0 i) (hc1 : cond1_1 i) (x0 : Vec F S1024x1024 .f32) (x1 : Vec F S1024x1024 .f32) (x2 : Vec F S1x1024 .f32) (x3 : Vec F S1024x16 .f32) (x4 : Vec F S1024x16 .f32) (xs0 : Vec F S1024x1024 .f32) :
    out1_C_5 c i arg3 harg3 arg4 harg4 arg5 harg5 arg6 harg6 arg7 harg7 arg8 harg8 arg9 harg9 hc0 hc1 x0 x1 x2 x3 x4 xs0 = k1_pay3 x3 x4 x2 (k1_pay2 x0 x1 xs0) := by
  unfold out1_C_5
  rw [View.read_writes_eq_canon _ _ _ (cover1_C_5 c i arg3 harg3 arg4 harg4 arg5 harg5 arg6 harg6 arg7 harg7 arg8 harg8 arg9 harg9 hc0 hc1 x0 x1 x2 x3 x4 xs0)]
  unfold kernelRun1_C
  dsimp only
  sl_unfold_words
  rw [View.canon_unit_zero hz1]
  simp only [View.readAt_eq_ld, harg3.read_unread, harg4.read_unread, harg5.read_unread, harg6.read_unread, harg7.read_unread, harg9.read_unread, View.ld_unit_zero (S := S1024x1024) hz1, View.ld_unit_zero (S := S1024x16) hz1, View.ld_unit_zero (S := S1x1024) hz1, View.readCov_unit_zero (S := S1024x1024) _ hz1]

end Pieces

/-! ## The payloads at an index, over the extended reals

  At the ideal values a format change is the identity, a same-shape cast is the identity, and a block product into the
  zero splat is the plain sum over the contracted coordinate of the operands' products: row p of the left block against
  row q of the right one. -/

section Payloads

theorem lhs_slab_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_slab_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_slab_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_slab_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem lhs_rank_0 (i : S1024x1024.Idx) (q : dot_S1024x16_S1024x16_S1024x1024_1_1_0_0_n_n.contr.Idx) :
    (dot_S1024x16_S1024x16_S1024x1024_1_1_0_0_n_n.lhsIdx i q 0).val = (i 0).val := by
  unfold DotDims.lhsIdx
  rw [dif_neg (show ¬(0 : Fin S1024x16.rank) ∈ dot_S1024x16_S1024x16_S1024x1024_1_1_0_0_n_n.lhsBatch by decide), dif_pos (show (0 : Fin S1024x16.rank) ∈ dot_S1024x16_S1024x16_S1024x1024_1_1_0_0_n_n.lhsNonContracting by decide)]
  rfl
theorem lhs_rank_1 (i : S1024x1024.Idx) (q : dot_S1024x16_S1024x16_S1024x1024_1_1_0_0_n_n.contr.Idx) :
    (dot_S1024x16_S1024x16_S1024x1024_1_1_0_0_n_n.lhsIdx i q 1).val = (q ⟨0, by decide⟩).val :=
  dot_S1024x16_S1024x16_S1024x1024_1_1_0_0_n_n.lhsIdx_val_of_single rfl i q
theorem rhs_rank_0 (i : S1024x1024.Idx) (q : dot_S1024x16_S1024x16_S1024x1024_1_1_0_0_n_n.contr.Idx) :
    (dot_S1024x16_S1024x16_S1024x1024_1_1_0_0_n_n.rhsIdx i q 0).val = (i 1).val := by
  unfold DotDims.rhsIdx
  rw [dif_neg (show ¬(0 : Fin S1024x16.rank) ∈ dot_S1024x16_S1024x16_S1024x1024_1_1_0_0_n_n.rhsBatch by decide), dif_pos (show (0 : Fin S1024x16.rank) ∈ dot_S1024x16_S1024x16_S1024x1024_1_1_0_0_n_n.rhsNonContracting by decide)]
  rfl
theorem rhs_rank_1 (i : S1024x1024.Idx) (q : dot_S1024x16_S1024x16_S1024x1024_1_1_0_0_n_n.contr.Idx) :
    (dot_S1024x16_S1024x16_S1024x1024_1_1_0_0_n_n.rhsIdx i q 1).val = (q ⟨0, by decide⟩).val :=
  dot_S1024x16_S1024x16_S1024x1024_1_1_0_0_n_n.rhsIdx_val_of_single rfl i q

/-- The block product of two [1024, 1024] blocks into the zero splat, at (p, q): row p against row q. -/
theorem slab_matmul_apply (x a : FVec Ideal S1024x1024 .bf16) (p q : Fin 1024) :
    FloatOps.matmul dot_S1024x1024_S1024x1024_S1024x1024_1_1_0_0_n_n none x a (constant (F := Ideal) S1024x1024 .f32 0x00000000#32) (ix2 p q)
      = ∑ d : Fin 1024, x (ix2 p d) * a (ix2 q d) := by
  refine (Ideal.matmul_constant_zero_apply dot_S1024x1024_S1024x1024_S1024x1024_1_1_0_0_n_n none x a (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun b => Fin.ext (by
    match b with
    | ⟨0, _⟩ => exact lhs_slab_0 _ _
    | ⟨1, _⟩ => exact (lhs_slab_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun b => Fin.ext (by
    match b with
    | ⟨0, _⟩ => exact rhs_slab_0 _ _
    | ⟨1, _⟩ => exact (rhs_slab_1 _ _).trans hk)
  rw [el, er]

/-- The product of two [1024, 16] blocks into the zero splat, at (p, q): row p against row q, over the 16 columns. -/
theorem rank_matmul_apply (h b : FVec Ideal S1024x16 .bf16) (p q : Fin 1024) :
    FloatOps.matmul dot_S1024x16_S1024x16_S1024x1024_1_1_0_0_n_n none h b (constant (F := Ideal) S1024x1024 .f32 0x00000000#32) (ix2 p q)
      = ∑ r : Fin 16, h (ix2 p r) * b (ix2 q r) := by
  refine (Ideal.matmul_constant_zero_apply dot_S1024x16_S1024x16_S1024x1024_1_1_0_0_n_n none h b (ix2 p q)).trans ?_
  rw [← Equiv.sum_comp (contrEquiv1 dot_S1024x16_S1024x16_S1024x1024_1_1_0_0_n_n 16 rfl rfl).symm]
  refine Finset.sum_congr rfl fun k _ => ?_
  have hk := contrEquiv1_symm_val dot_S1024x16_S1024x16_S1024x1024_1_1_0_0_n_n 16 rfl rfl k
  have el : dot_S1024x16_S1024x16_S1024x1024_1_1_0_0_n_n.lhsIdx (ix2 p q) ((contrEquiv1 dot_S1024x16_S1024x16_S1024x1024_1_1_0_0_n_n 16 rfl rfl).symm k) = ix2 p k := funext fun b => Fin.ext (by
    match b with
    | ⟨0, _⟩ => exact lhs_rank_0 _ _
    | ⟨1, _⟩ => exact (lhs_rank_1 _ _).trans hk)
  have er : dot_S1024x16_S1024x16_S1024x1024_1_1_0_0_n_n.rhsIdx (ix2 p q) ((contrEquiv1 dot_S1024x16_S1024x16_S1024x1024_1_1_0_0_n_n 16 rfl rfl).symm k) = ix2 q k := funext fun b => Fin.ext (by
    match b with
    | ⟨0, _⟩ => exact rhs_rank_0 _ _
    | ⟨1, _⟩ => exact (rhs_rank_1 _ _).trans hk)
  rw [el, er]

/-- The reset value is zero everywhere. -/
theorem pay1_apply (j : S1024x1024.Idx) : (k1_pay1 (F := Ideal)) j = 0 := by
  unfold k1_pay1
  refine (congrFun (shapeCast_self _ _) j).trans ?_
  exact Ideal.ofBits_zero_f32

/-- One slab's update at (p, q): what the accumulator held plus row p of the x block against row q of the W block. -/
theorem pay2_apply (x a s : Vec Ideal S1024x1024 .f32) (p q : Fin 1024) :
    k1_pay2 (F := Ideal) x a s (ix2 p q) = s (ix2 p q) + ∑ d : Fin 1024, x (ix2 p d) * a (ix2 q d) := by
  unfold k1_pay2
  refine (congrFun (shapeCast_self _ _) (ix2 p q)).trans ?_
  refine congrArg (s (ix2 p q) + ·) ?_
  refine (slab_matmul_apply _ _ p q).trans ?_
  refine Finset.sum_congr rfl fun d _ => ?_
  exact congrArg (· * a (ix2 q d)) (congrFun (shapeCast_self x _) (ix2 p d))

/-- The result block at (p, q): the accumulator plus the bias row's entry q, plus row p of the h block against row q of
    the Bs block. -/
theorem pay3_apply (h bs : Vec Ideal S1024x16 .f32) (b : Vec Ideal S1x1024 .f32) (acc : Vec Ideal S1024x1024 .f32) (p q : Fin 1024) :
    k1_pay3 (F := Ideal) h bs b acc (ix2 p q) = (acc (ix2 p q) + b (ix2 0 q)) + ∑ r : Fin 16, h (ix2 p r) * bs (ix2 q r) := by
  unfold k1_pay3
  have eb : broadcastTo S1024x1024 (shapeCast S1x1024 (shapeCast S1x1024 b shapeCasts_S1x1024_S1x1024) shapeCasts_S1x1024_S1x1024) broadcasts_S1x1024_S1024x1024 (ix2 p q) = b (ix2 0 q) := by
    refine (broadcastTo_apply _ _ (ix2 p q) (ix2 0 q) (fun a => by
      match a with
      | ⟨0, _⟩ => rfl
      | ⟨1, _⟩ => rfl)).trans ?_
    refine (congrFun (shapeCast_self _ _) (ix2 0 q)).trans ?_
    exact congrFun (shapeCast_self b _) (ix2 0 q)
  have em := rank_matmul_apply (truncf .bf16 (shapeCast S1024x16 h shapeCasts_S1024x16_S1024x16) bitsLt_bf16_f32) (truncf .bf16 (shapeCast S1024x16 bs shapeCasts_S1024x16_S1024x16) bitsLt_bf16_f32) p q
  refine (congrArg₂ (· + ·) (congrArg (acc (ix2 p q) + ·) eb) em).trans ?_
  refine congrArg ((acc (ix2 p q) + b (ix2 0 q)) + ·) ?_
  refine Finset.sum_congr rfl fun r _ => ?_
  exact congrArg₂ (· * ·) (congrFun (shapeCast_self h _) (ix2 p r)) (congrFun (shapeCast_self bs _) (ix2 q r))

end Payloads

/-! ## The blocks, read off the arrays the region finds

  Point t = 16 i + 4 j + k works on output block (i, j) and slab k. Row p of its x block is row 1024 i + p of x2, columns
  1024 k …; row q of its W block is row 1024 j + q of W, the same columns; its bias block is columns 1024 j … of the bias
  row; its h block is rows 1024 i … of h and its Bs block rows 1024 j … of Bs. -/

section Blocks
variable (V : (c : Dev nD) → (b : Ref sig .tc) → Buf (Elt Ideal) ((c : Thread nD τ).loc b))

abbrev xarr (c : Dev nD) : Cert.Spec.Sx2.Idx → EReal := V c main_v0
abbrev warr (c : Dev nD) : Cert.Spec.SW.Idx → EReal := V c main_arg1
abbrev barr (c : Dev nD) : Cert.Spec.Sb2.Idx → EReal := V c main_v3
abbrev harr (c : Dev nD) : Cert.Spec.Sh.Idx → EReal := V c main_v4
abbrev sarr (c : Dev nD) : Cert.Spec.SB.Idx → EReal := V c main_v2
abbrev xblk (c : Dev nD) (t : Fin cfg1.N) : Vec Ideal S1024x1024 .f32 := iblk1 V c 0 t
abbrev wblk (c : Dev nD) (t : Fin cfg1.N) : Vec Ideal S1024x1024 .f32 := iblk1 V c 1 t
abbrev bblk (c : Dev nD) (t : Fin cfg1.N) : Vec Ideal S1x1024 .f32 := iblk1 V c 2 t
abbrev hblk (c : Dev nD) (t : Fin cfg1.N) : Vec Ideal S1024x16 .f32 := iblk1 V c 3 t
abbrev sblk (c : Dev nD) (t : Fin cfg1.N) : Vec Ideal S1024x16 .f32 := iblk1 V c 4 t

theorem N1 : cfg1.N = 128 := N_1

/-- The array row under row p of the point's row block: 1024 · (t / 16) + p. -/
def grow (t : Fin cfg1.N) (p : Fin 1024) : Fin 8192 :=
  ⟨1024 * (t.val / 16) + p.val, by have := t.isLt; have := N1; have := p.isLt; omega⟩
/-- The array column under column q of the point's column block: 1024 · (t / 4 mod 4) + q. -/
def gcol (t : Fin cfg1.N) (q : Fin 1024) : Fin 4096 :=
  ⟨1024 * (t.val / 4 % 4) + q.val, by have := q.isLt; omega⟩
/-- The contracted coordinate under coordinate d of the point's slab: 1024 · (t mod 4) + d. -/
def gdep (t : Fin cfg1.N) (d : Fin 1024) : Fin 4096 :=
  ⟨1024 * (t.val % 4) + d.val, by have := d.isLt; omega⟩

/-- The six index maps in closed form over the point's position, decided over the grid. -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = 0
    ∧ win1_4.index t (0 : Fin 2) = t.val / 4 % 4 ∧ win1_4.index t (1 : Fin 2) = 0
    ∧ win1_5.index t (0 : Fin 2) = t.val / 16 ∧ win1_5.index t (1 : Fin 2) = t.val / 4 % 4 :=
  (by decide +kernel : ∀ t : Fin grid1.N, _)

theorem xblk_apply (c : Dev nD) (t : Fin cfg1.N) (p d : Fin 1024) :
    xblk V c t (ix2 p d) = xarr V c (ix2 (grow t p) (gdep t d)) := by
  obtain ⟨e0, e1, -⟩ := idx_facts1 t
  show V c main_v0 (((cfg1.win 0).blk t).view.emb (ix2 p d)) = V c main_v0 (ix2 (grow t p) (gdep t d))
  refine congrArg (V c main_v0) (funext fun a => Fin.ext ?_)
  match a with
  | ⟨0, _⟩ => show win1_0.index t (0 : Fin 2) * 1024 + 1 * p.val = 1024 * (t.val / 16) + p.val; rw [e0]; omega
  | ⟨1, _⟩ => show win1_0.index t (1 : Fin 2) * 1024 + 1 * d.val = 1024 * (t.val % 4) + d.val; rw [e1]; omega

theorem wblk_apply (c : Dev nD) (t : Fin cfg1.N) (q d : Fin 1024) :
    wblk V c t (ix2 q d) = warr V c (ix2 (gcol t q) (gdep t d)) := by
  obtain ⟨-, -, e0, e1, -⟩ := idx_facts1 t
  show V c main_arg1 (((cfg1.win 1).blk t).view.emb (ix2 q d)) = V c main_arg1 (ix2 (gcol t q) (gdep t d))
  refine congrArg (V c main_arg1) (funext fun a => Fin.ext ?_)
  match a with
  | ⟨0, _⟩ => show win1_1.index t (0 : Fin 2) * 1024 + 1 * q.val = 1024 * (t.val / 4 % 4) + q.val; rw [e0]; omega
  | ⟨1, _⟩ => show win1_1.index t (1 : Fin 2) * 1024 + 1 * d.val = 1024 * (t.val % 4) + d.val; rw [e1]; omega

theorem bblk_apply (c : Dev nD) (t : Fin cfg1.N) (q : Fin 1024) :
    bblk V c t (ix2 (0 : Fin 1) q) = barr V c (ix2 (0 : Fin 1) (gcol t q)) := by
  obtain ⟨-, -, -, -, e0, e1, -⟩ := idx_facts1 t
  show V c main_v3 (((cfg1.win 2).blk t).view.emb (ix2 (0 : Fin 1) q)) = V c main_v3 (ix2 (0 : Fin 1) (gcol t q))
  refine congrArg (V c main_v3) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = 1024 * (t.val / 4 % 4) + q.val; rw [e1]; omega

theorem hblk_apply (c : Dev nD) (t : Fin cfg1.N) (p : Fin 1024) (r : Fin 16) :
    hblk V c t (ix2 p r) = harr V c (ix2 (grow t p) r) := by
  obtain ⟨-, -, -, -, -, -, e0, e1, -⟩ := idx_facts1 t
  show V c main_v4 (((cfg1.win 3).blk t).view.emb (ix2 p r)) = V c main_v4 (ix2 (grow t p) r)
  refine congrArg (V c main_v4) (funext fun a => Fin.ext ?_)
  match a with
  | ⟨0, _⟩ => show win1_3.index t (0 : Fin 2) * 1024 + 1 * p.val = 1024 * (t.val / 16) + p.val; rw [e0]; omega
  | ⟨1, _⟩ => show win1_3.index t (1 : Fin 2) * 16 + 1 * r.val = r.val; rw [e1]; omega

theorem sblk_apply (c : Dev nD) (t : Fin cfg1.N) (q : Fin 1024) (r : Fin 16) :
    sblk V c t (ix2 q r) = sarr V c (ix2 (gcol t q) r) := by
  obtain ⟨-, -, -, -, -, -, -, -, e0, e1, -⟩ := idx_facts1 t
  show V c main_v2 (((cfg1.win 4).blk t).view.emb (ix2 q r)) = V c main_v2 (ix2 (gcol t q) r)
  refine congrArg (V c main_v2) (funext fun a => Fin.ext ?_)
  match a with
  | ⟨0, _⟩ => show win1_4.index t (0 : Fin 2) * 1024 + 1 * q.val = 1024 * (t.val / 4 % 4) + q.val; rw [e0]; omega
  | ⟨1, _⟩ => show win1_4.index t (1 : Fin 2) * 16 + 1 * r.val = r.val; rw [e1]; omega

/-! ## The accumulator, point by point -/

/-- The products contracted for entry (p, q) of the point's output block, over the whole depth 4096. -/
def fpt (c : Dev nD) (t : Fin cfg1.N) (p q : Fin 1024) : Fin 4096 → EReal :=
  fun d => xarr V c (ix2 (grow t p) d) * warr V c (ix2 (gcol t q) d)

/-- The slab of 1024 terms a point at position k (mod 4) contracts. -/
def slabN (f : Fin 4096 → EReal) (k : ℕ) : EReal :=
  ∑ d : Fin 1024, f ⟨1024 * (k % 4) + d.val, by have := d.isLt; have := Nat.mod_lt k (show 0 < 4 by decide); omega⟩

theorem slabN_congr (f : Fin 4096 → EReal) {a b : ℕ} (h : a % 4 = b % 4) : slabN f a = slabN f b := by
  unfold slabN
  refine Finset.sum_congr rfl fun d _ => congrArg f (Fin.ext ?_)
  show 1024 * (a % 4) + d.val = 1024 * (b % 4) + d.val
  rw [h]

/-- The slabs accumulated from zero, left to right, up to slab n. -/
def slabs (f : Fin 4096 → EReal) : ℕ → EReal
  | 0 => 0 + slabN f 0
  | n + 1 => slabs f n + slabN f (n + 1)

/-- The four slabs accumulated from zero are the whole contraction. -/
theorem slabs_three (f : Fin 4096 → EReal) : slabs f 3 = ∑ d : Fin 4096, f d :=
  (show slabs f 3 = (((0 + Cert.Spec.slab f 0) + Cert.Spec.slab f 1) + Cert.Spec.slab f 2) + Cert.Spec.slab f 3 from rfl).trans
    (Cert.Spec.sum_slabs f)

/-- What a point's two blocks contract is its slab of the products. -/
theorem blk_sum (c : Dev nD) (t : Fin cfg1.N) (p q : Fin 1024) :
    ∑ d : Fin 1024, xblk V c t (ix2 p d) * wblk V c t (ix2 q d) = slabN (fpt V c t p q) t.val := by
  unfold slabN fpt
  refine Finset.sum_congr rfl fun d _ => ?_
  rw [xblk_apply, wblk_apply]
  rfl

/-- Within a step of four slabs the output block, hence the products, do not move. -/
theorem fpt_succ (c : Dev nD) (n : ℕ) (hn : n + 1 < cfg1.N) (h0 : ¬(n + 1) % 4 = 0) (p q : Fin 1024) :
    fpt V c ⟨n + 1, hn⟩ p q = fpt V c ⟨n, Nat.lt_of_succ_lt hn⟩ p q := by
  have er : grow ⟨n + 1, hn⟩ p = grow ⟨n, Nat.lt_of_succ_lt hn⟩ p := Fin.ext (by
    show 1024 * ((n + 1) / 16) + p.val = 1024 * (n / 16) + p.val; omega)
  have ec : gcol ⟨n + 1, hn⟩ q = gcol ⟨n, Nat.lt_of_succ_lt hn⟩ q := Fin.ext (by
    show 1024 * ((n + 1) / 4 % 4) + q.val = 1024 * (n / 4 % 4) + q.val; omega)
  unfold fpt
  rw [er, ec]

/-- A step's first slab: zero plus the slab. -/
theorem acc_first (c : Dev nD) (t : Fin cfg1.N) (h0 : t.val % 4 = 0) (p q : Fin 1024) :
    (outsAt1 V c t.val t.isLt).2 (ix2 p q) = 0 + slabN (fpt V c t p q) t.val := by
  have h1 : ¬t.val % 4 = 3 := by omega
  rw [outsAt1_A V c t h0 h1]
  dsimp only
  refine (congrFun (sout1_A_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) ((hcond1_0 t).mpr h0) (fun h => h1 ((hcond1_1 t).mp h)) (xblk V c t) (wblk V c t)) (ix2 p q)).trans ?_
  refine (pay2_apply (xblk V c t) (wblk V c t) (k1_pay1 (F := Ideal)) p q).trans ?_
  rw [pay1_apply, blk_sum]

/-- A later slab: what the accumulator held after the point before, plus the slab. -/
theorem acc_next (c : Dev nD) (t : Fin cfg1.N) (h0 : ¬t.val % 4 = 0) (p q : Fin 1024) :
    (outsAt1 V c t.val t.isLt).2 (ix2 p q)
      = (outsAt1 V c (t.val - 1) (Nat.lt_of_le_of_lt (Nat.sub_le _ _) t.isLt)).2 (ix2 p q) + slabN (fpt V c t p q) t.val := by
  by_cases h1 : t.val % 4 = 3
  · rw [outsAt1_C V c t h0 h1]
    dsimp only
    refine (congrFun (sout1_C_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (xblk V c t) (wblk V c t) (bblk V c t) (hblk V c t) (sblk V c t) (outsAt1 V c (t.val - 1) (Nat.lt_of_le_of_lt (Nat.sub_le _ _) t.isLt)).2) (ix2 p q)).trans ?_
    refine (pay2_apply (xblk V c t) (wblk V c t) (outsAt1 V c (t.val - 1) (Nat.lt_of_le_of_lt (Nat.sub_le _ _) t.isLt)).2 p q).trans ?_
    rw [blk_sum]
  · rw [outsAt1_B V c t h0 h1]
    dsimp only
    refine (congrFun (sout1_B_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) (fun h => h1 ((hcond1_1 t).mp h)) (xblk V c t) (wblk V c t) (outsAt1 V c (t.val - 1) (Nat.lt_of_le_of_lt (Nat.sub_le _ _) t.isLt)).2) (ix2 p q)).trans ?_
    refine (pay2_apply (xblk V c t) (wblk V c t) (outsAt1 V c (t.val - 1) (Nat.lt_of_le_of_lt (Nat.sub_le _ _) t.isLt)).2 p q).trans ?_
    rw [blk_sum]

/-- After point n the accumulator holds, at (p, q), the slabs 0 … n mod 4 of the products of its output block's entry,
    accumulated from zero left to right. -/
theorem acc_inv (c : Dev nD) : ∀ (n : ℕ) (hn : n < cfg1.N) (p q : Fin 1024),
    (outsAt1 V c n hn).2 (ix2 p q) = slabs (fpt V c ⟨n, hn⟩ p q) (n % 4)
  | 0, hn, p, q => (acc_first V c ⟨0, hn⟩ rfl p q)
  | n + 1, hn, p, q => by
    by_cases h0 : (n + 1) % 4 = 0
    · refine (acc_first V c ⟨n + 1, hn⟩ h0 p q).trans ?_
      show 0 + slabN (fpt V c ⟨n + 1, hn⟩ p q) (n + 1) = slabs (fpt V c ⟨n + 1, hn⟩ p q) ((n + 1) % 4)
      rw [h0, slabN_congr (fpt V c ⟨n + 1, hn⟩ p q) (show (n + 1) % 4 = 0 % 4 from h0)]
      rfl
    · refine (acc_next V c ⟨n + 1, hn⟩ h0 p q).trans ?_
      show (outsAt1 V c n _).2 (ix2 p q) + slabN (fpt V c ⟨n + 1, hn⟩ p q) (n + 1) = slabs (fpt V c ⟨n + 1, hn⟩ p q) ((n + 1) % 4)
      rw [acc_inv c n (Nat.lt_of_succ_lt hn) p q, ← fpt_succ V c n hn h0 p q, show (n + 1) % 4 = n % 4 + 1 by omega,
        slabN_congr (fpt V c ⟨n + 1, hn⟩ p q) (show (n + 1) % 4 = (n % 4 + 1) % 4 by omega)]
      rfl

end Blocks

/-! ## What is written back, and the array after the last point -/

section Final
variable (V : (c : Dev nD) → (b : Ref sig .tc) → Buf (Elt Ideal) ((c : Thread nD τ).loc b))

/-- The fused result of the five arrays as the region finds them. -/
abbrev yarr (c : Dev nD) : Cert.Spec.Sx2.Idx → EReal :=
  Cert.Spec.yval (xarr V c) (warr V c) (barr V c) (harr V c) (sarr V c)

/-- At a step's last slab the result window's buffer holds, at (p, q), the fused result at the array entry under it:
    the accumulator is by then the whole contraction, and the bias entry and the rank-16 product are read at the same
    row and column. -/
theorem flush_apply (c : Dev nD) (t : Fin cfg1.N) (h1 : t.val % 4 = 3) (p q : Fin 1024) :
    (outsAt1 V c t.val t.isLt).1 (ix2 p q) = yarr V c (ix2 (grow t p) (gcol t q)) := by
  have h0 : ¬t.val % 4 = 0 := by omega
  have eacc : k1_pay2 (F := Ideal) (xblk V c t) (wblk V c t) (outsAt1 V c (t.val - 1) (Nat.lt_of_le_of_lt (Nat.sub_le _ _) t.isLt)).2 (ix2 p q) = ∑ d : Fin 4096, fpt V c t p q d := by
    refine (pay2_apply (xblk V c t) (wblk V c t) (outsAt1 V c (t.val - 1) (Nat.lt_of_le_of_lt (Nat.sub_le _ _) t.isLt)).2 p q).trans ?_
    rw [blk_sum]
    refine (acc_next V c t h0 p q).symm.trans ?_
    refine (acc_inv V c t.val t.isLt p q).trans ?_
    rw [h1]
    exact slabs_three _
  rw [outsAt1_C V c t h0 h1]
  dsimp only
  refine (congrFun (out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1 (Memref.isWhole_whole _) (fun h => h0 ((hcond1_0 t).mp h)) ((hcond1_1 t).mpr h1) (xblk V c t) (wblk V c t) (bblk V c t) (hblk V c t) (sblk V c t) (outsAt1 V c (t.val - 1) (Nat.lt_of_le_of_lt (Nat.sub_le _ _) t.isLt)).2) (ix2 p q)).trans ?_
  refine (pay3_apply (hblk V c t) (sblk V c t) (bblk V c t) (k1_pay2 (F := Ideal) (xblk V c t) (wblk V c t) (outsAt1 V c (t.val - 1) (Nat.lt_of_le_of_lt (Nat.sub_le _ _) t.isLt)).2) p q).trans ?_
  rw [eacc, bblk_apply]
  simp only [hblk_apply, sblk_apply]
  rfl

/-- A [1024, 1024] block whose entry (p, q) is G at row 1024 · (t / 16) + p, column 1024 · (t / 4 mod 4) + q is the block
    of G the result window names at point t. -/
theorem blk5_read (t : Fin cfg1.N) (G : Cert.Spec.Sx2.Idx → EReal) (B : Vec Ideal S1024x1024 .f32)
    (h : ∀ p q : Fin 1024, B (ix2 p q) = G (ix2 (grow t p) (gcol t q))) :
    (cfg1.win 5).cut (grid1.coords t) B = ((cfg1.win 5).blk t).view.read (Elt Ideal) G := by
  obtain ⟨-, -, -, -, -, -, -, -, -, -, e0, e1⟩ := idx_facts1 t
  funext j
  have hp : (j 0).val < 1024 := (j 0).isLt
  have hq : (j 1).val < 1024 := (j 1).isLt
  have ex : (cfg1.win 5).xinj (grid1.coords t) j = ix2 (⟨(j 0).val, hp⟩ : Fin 1024) (⟨(j 1).val, hq⟩ : Fin 1024) := funext fun a => by
    match a with
    | ⟨0, _⟩ => rfl
    | ⟨1, _⟩ => rfl
  have ee : ((cfg1.win 5).blk t).view.emb j = ix2 (grow t ⟨(j 0).val, hp⟩) (gcol t ⟨(j 1).val, hq⟩) := funext fun a => Fin.ext (by
    match a with
    | ⟨0, _⟩ => show win1_5.index t (0 : Fin 2) * 1024 + 1 * (j 0).val = 1024 * (t.val / 16) + (j 0).val; rw [e0]; omega
    | ⟨1, _⟩ => show win1_5.index t (1 : Fin 2) * 1024 + 1 * (j 1).val = 1024 * (t.val / 4 % 4) + (j 1).val; rw [e1]; omega)
  show B ((cfg1.win 5).xinj (grid1.coords t) j) = G (((cfg1.win 5).blk t).view.emb j)
  exact (congrArg B ex).trans ((h _ _).trans (congrArg G ee.symm))

/-- What a writing point writes back is its block of the fused result. -/
theorem flushed1_eq (c : Dev nD) (t : Fin cfg1.N) (hf : (cfg1.win 5).flush t = true) :
    (dat1 (F := Ideal) V c).flushed 5 t = ((cfg1.win 5).blk t).view.read (Elt Ideal) (yarr V c) := by
  have h1 : t.val % 4 = 3 := (flush1_5 t).mp hf
  show (cfg1.win 5).cut (grid1.coords t) ((dat1 (F := Ideal) V c).after 5 t) = _
  rw [after1_5]
  exact blk5_read t (yarr V c) (outsAt1 V c t.val t.isLt).1 (flush_apply V c t h1)

/-- Every entry (m, n) of the array is in the block written back at point 16 · (m / 1024) + 4 · (n / 1024) + 3. -/
theorem cover1 (i : Cert.Spec.Sx2.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  have hN := N1
  obtain ⟨t, ht⟩ : ∃ t : Fin cfg1.N, t.val = 16 * ((i 0).val / 1024) + 4 * ((i 1).val / 1024) + 3 :=
    ⟨⟨16 * ((i 0).val / 1024) + 4 * ((i 1).val / 1024) + 3, by omega⟩, rfl⟩
  obtain ⟨-, -, -, -, -, -, -, -, -, -, e0, e1⟩ := idx_facts1 t
  refine ⟨t, (flush1_5 t).mpr (by omega), ?_⟩
  show i ∈ ((View.whole main_v5).slice (win1_5.rect t)).set
  rw [View.set_slice_whole, Rect.mem_set_unit]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 1024 ≤ (i 1).val ∧ (i 1).val < win1_5.index t (1 : Fin 2) * 1024 + 1024; omega

/-- The region's result array after its last point is the fused result of the contents its five input arrays had when the
    region was entered. -/
theorem arr1_final (c : Dev nD) :
    (dat1 (F := Ideal) V c).arrAt 5 cfg1.N = (Cert.Spec.yval (V c main_v0) (V c main_arg1) (V c main_v3) (V c main_v4) (V c main_v2) : Cert.Spec.Sx2.Idx → EReal) :=
  (dat1 (F := Ideal) V c).arrAt_eq_of_cover 5 (yarr V c) (fun t hf => flushed1_eq V c t hf) (fun i => cover1 i)

end Final

end Cert.KernelIdeal.Hand

end
-- ==== Proof.KernelValue.lean ====
/-
  The idealized program's result. The run ends with every unscoped buffer at the last valuation; there the result buffer is
  the second region's result array reshaped, that array is the fused sum of what the region found in its five inputs, the
  first region's result among them is the down-projection of what it found, and the host layouts read at an index turn the
  whole into G of the five arguments.
-/
import proofs.«178149_j16561393893679_1_alg».proof.Proof.HostValue
import proofs.«178149_j16561393893679_1_alg».proof.Proof.Value0
import proofs.«178149_j16561393893679_1_alg».proof.Proof.Value1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The result buffer at the end is G of the launch contents of the five arguments. -/
theorem atEnd_v6_eq (c : Dev nD) :
    (atEnd m ρ c (Proc.devRef .tc main_v6) : S2x4096x4096.Idx → EReal)
      = Cert.Spec.G (m ((c : Thread nD τ).loc main_arg0)) (m ((c : Thread nD τ).loc main_arg1)) (m ((c : Thread nD τ).loc main_arg2))
          (m ((c : Thread nD τ).loc main_arg3)) (m ((c : Thread nD τ).loc main_arg4)) := by
  rw [atEnd_v6]
  have e5 : (afterR1 m ρ c (Proc.devRef .tc main_v5) : S8192x4096.Idx → EReal) = (dat1 (F := Ideal) (inR1 m ρ) c).arrAt 5 cfg1.N := afterR1_arr m ρ c 5
  rw [e5, arr1_final (inR1 m ρ) c, inR1_v0, inR1_arg1, inR1_v3, inR1_v4, inR1_v2, arr0_final (inR0 m ρ) c]
  have a0 : (inR0 m ρ c main_v0 : S8192x4096.Idx → EReal) = _ := atR0_v0 m ρ c
  have a1 : inR0 m ρ c main_arg1 = _ := atR0_arg1 m ρ c
  have a2 : inR0 m ρ c main_arg2 = _ := atR0_arg2 m ρ c
  have a3 : (inR0 m ρ c main_v3 : S1x4096.Idx → EReal) = _ := atR0_v3 m ρ c
  have a4 : (inR0 m ρ c main_v2 : S4096x16.Idx → EReal) = _ := atR0_v2 m ρ c
  rw [a0, a1, a2, a3, a4]
  exact flat_result _ _ _ _ _

/-- THE VALUE RUN: every weakly fair execution of the idealized @main ends with the result buffer at G of the arguments and
    the arguments as launched. -/
theorem run_value : θ_run defs (onTc (τ := τ) (main (F := Ideal))) ⟨m, fun _ => 0, ρ⟩ (fun r => ∀ c : Dev nD,
      r.2.mem ((c.tc : Thread nD τ).loc main_v6) = Cert.Spec.G (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v6 (by decide))).trans (atEnd_v6_eq m ρ c),
     (h c _ (mem_uc main_arg0 (by decide))).trans (atEnd_main_arg0 m ρ c),
     (h c _ (mem_uc main_arg1 (by decide))).trans (atEnd_main_arg1 m ρ c),
     (h c _ (mem_uc main_arg2 (by decide))).trans (atEnd_main_arg2 m ρ c),
     (h c _ (mem_uc main_arg3 (by decide))).trans (atEnd_main_arg3 m ρ c),
     (h c _ (mem_uc main_arg4 (by decide))).trans (atEnd_main_arg4 m ρ c)⟩) (run_main m ρ)

end Cert.KernelIdeal.Hand

end
-- ==== Proof.RefValue.lean ====
/-
  The reference's value, index by index: the reference computes ((x·Wᵀ) + bias) + 1 · ((x·Aᵀ)·Bᵀ) over the extended reals,
  and one times a value is that value, so its result is the specification's G at every index.
-/
import proofs.«178149_j16561393893679_1_alg».proof.Proof.Gen.ReferenceIdeal.Run
import proofs.«178149_j16561393893679_1_alg».proof.Proof.Gen.ReferenceIdeal.Read
import proofs.«178149_j16561393893679_1_alg».proof.Proof.Spec

noncomputable section

namespace Cert.ReferenceIdeal.RefValue

open Cert.ReferenceIdeal Cert.ReferenceIdeal.Read Idealize.ShloMosaic Idealize.ShloMosaic.ValueIdx

/-! ## Where each operation reads its operands, by coordinates -/

/-- The base product reads x at (b, s, d). -/
theorem xW_left (i : S2x4096x4096.Idx) (k : Fin 4096) : lidx_main_v0 i k = ix3 (i 0) (i 1) k :=
  funext fun a => Fin.ext (by match a with | ⟨0, _⟩ => rfl | ⟨1, _⟩ => rfl | ⟨2, _⟩ => rfl)

/-- The base product reads W at (n, d). -/
theorem xW_right (i : S2x4096x4096.Idx) (k : Fin 4096) : ridx_main_v0 i k = ix2 (i 2) k :=
  funext fun a => Fin.ext (by match a with | ⟨0, _⟩ => rfl | ⟨1, _⟩ => rfl)

/-- The bias, broadcast twice, is read at n. -/
theorem bias_at (i : S2x4096x4096.Idx) : idx_main_v1 (idx_main_v2 i) = ix1 (i 2) :=
  funext fun a => Fin.ext (by match a with | ⟨0, _⟩ => rfl)

/-- The down-projection inside the low-rank product reads x at (b, s, d). -/
theorem xA_left (i : S2x4096x4096.Idx) (r : Fin 16) (k : Fin 4096) :
    lidx_main_v4 (lidx_main_v5 i r) k = ix3 (i 0) (i 1) k :=
  funext fun a => Fin.ext (by match a with | ⟨0, _⟩ => rfl | ⟨1, _⟩ => rfl | ⟨2, _⟩ => rfl)

/-- The down-projection inside the low-rank product reads A at (r, d). -/
theorem xA_right (i : S2x4096x4096.Idx) (r : Fin 16) (k : Fin 4096) :
    ridx_main_v4 (lidx_main_v5 i r) k = ix2 r k :=
  funext fun a => Fin.ext (by match a with | ⟨0, _⟩ => rfl | ⟨1, _⟩ => rfl)

/-- The up-projection reads B at (n, r). -/
theorem hB_right (i : S2x4096x4096.Idx) (r : Fin 16) : ridx_main_v5 i r = ix2 (i 2) r :=
  funext fun a => Fin.ext (by match a with | ⟨0, _⟩ => rfl | ⟨1, _⟩ => rfl)

/-! ## The reference is G -/

/-- The reference's result is the specification's function of its five arguments. -/
theorem ref_eq_G (x : (⟨Cert.ReferenceIdeal.S2x4096x4096, .f32⟩ : BufTy).Contents (Elt Ideal))
    (W : (⟨Cert.ReferenceIdeal.S4096x4096, .f32⟩ : BufTy).Contents (Elt Ideal))
    (A : (⟨Cert.ReferenceIdeal.S16x4096, .f32⟩ : BufTy).Contents (Elt Ideal))
    (B : (⟨Cert.ReferenceIdeal.S4096x16, .f32⟩ : BufTy).Contents (Elt Ideal))
    (bias : (⟨Cert.ReferenceIdeal.S4096, .f32⟩ : BufTy).Contents (Elt Ideal)) :
    Cert.ReferenceIdeal.Read.val_main_v8 (F := Ideal) x W A B bias = Cert.Spec.G x W A B bias := by
  funext i
  rw [val_main_v8_apply, val_main_v3_apply, val_main_v7_apply, val_main_v0_apply, val_main_v2_apply,
    val_main_v1_apply, val_main_v6_apply, val_main_cst_apply, val_main_v5_apply]
  simp only [val_main_v4_apply, xW_left, xW_right, bias_at, xA_left, xA_right, hB_right,
    Ideal.addf_def, Ideal.mulf_def, Ideal.ofBits_def, Cert.Spec.ofBits_one, one_mul]
  rfl

end Cert.ReferenceIdeal.RefValue

end
-- ==== Proof.lean ====
/-
  The certificate of the fused low-rank adapter: y = x · Wᵀ + bias + (x · Aᵀ) · Bᵀ (the scale alpha / rank is one), computed
  by two kernels — the rank-16 down-projection h = x · Aᵀ, then the base product with the bias and h · (1 · B)ᵀ added at the
  last contraction slab — against the three-einsum reference.
  Frames: each kernel program runs as four items (host operations, the two regions, a reshape) with every argument as
  launched at the end; the proof is written once for any float instance and read at the word-level and at the ideal one.
  The reference is host operations only: its generated run.
  Value: over the extended reals both programs compute G (the specification): the kernels' four 1024-wide slabs of the
  contraction, accumulated from zero, are the whole sum by associativity; the factor one drops out by 1 · b = b; format
  changes are the identity. No finiteness of the inputs is used.
-/
import proofs.«178149_j16561393893679_1_alg».proof.Defs
import proofs.«178149_j16561393893679_1_alg».proof.Proof.Gen.Kernel
import proofs.«178149_j16561393893679_1_alg».proof.Proof.Gen.KernelIdeal
import proofs.«178149_j16561393893679_1_alg».proof.Proof.Gen.ReferenceIdeal
import proofs.«178149_j16561393893679_1_alg».proof.Proof.Gen.Pre_finite_inputs
import proofs.«178149_j16561393893679_1_alg».proof.Proof.Kernel.Main
import proofs.«178149_j16561393893679_1_alg».proof.Proof.KernelIdeal.Main
import proofs.«178149_j16561393893679_1_alg».proof.Proof.KernelValue
import proofs.«178149_j16561393893679_1_alg».proof.Proof.RefValue
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel := fun m ρ _ => Cert.Kernel.Hand.frame m ρ

theorem frame_ki [Cert.KernelIdeal.Facts] [Cert.Pre_finite_inputs.Facts] : Cert.frame_KernelIdeal := fun m ρ _ => Cert.KernelIdeal.Hand.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both idealized programs end with their result at G of the arguments, which agree. -/
theorem algebraic [Cert.KernelIdeal.Facts] [Cert.ReferenceIdeal.Facts] [Cert.Pre_finite_inputs.Facts] : Cert.algebraic_KernelIdeal_ReferenceIdeal := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v8_eq _ _ _ _ _).trans (Cert.ReferenceIdeal.RefValue.ref_eq_G _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
